-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x32 : Shape := ⟨2, ![1000, 32]⟩
abbrev S2000000 : Shape := ⟨1, ![2000000]⟩
abbrev S_ : Shape := ⟨0, ![]⟩

class Facts : Prop where
  bcast_S_S1000x32 : S_.BroadcastsInDim S1000x32 (![] : Fin 0 → Fin S1000x32.rank)
  reducesTo_S1000x32_S_d0_1 : S1000x32.ReducesTo [0, 1] S_
  h_S_ : 0 < S_.numel
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg3 : IVec S2000000 32) (main_v13 : IVec S_ 1) (main_v15 : IVec S2000000 1) (main_c_5 : IVec S_ 1) : IVec S_ 1 :=
  let main_v16 : IVec S_ 1 := (fun x v => Host.reduce IntOp.andi x v reducesTo_S2000000_S_d0 h_S_) main_v15 main_c_5
  let main_v17 : IVec S_ 1 := andi main_v13 main_v16
  let main_c_6 : IVec S_ 32 := constantI S_ 32 1000#32
  let main_v18 : IVec S2000000 32 := broadcastInDim S2000000 ![] bcast_S_S2000000 main_c_6
  let main_v19 : IVec S2000000 1 := cmpi .slt main_arg3 main_v18
  let main_c_7 : IVec S_ 1 := constantI S_ 1 1#1
  let main_v20 : IVec S_ 1 := (fun x v => Host.reduce IntOp.andi x v reducesTo_S2000000_S_d0 h_S_) main_v19 main_c_7
  let main_v21 : IVec S_ 1 := andi main_v17 main_v20
  main_v21

def fn {F : FTy → Type} [FloatOps F] (main_arg0 : FVec F S1000x32 .f32) (main_arg1 : FVec F S1000x32 .f32) (main_arg2 : FVec F S2000000 .f32) (main_arg3 : IVec S2000000 32) (main_arg4 : IVec S2000000 32) : IVec S_ 1 :=
  let main_v0 : FVec F S1000x32 .f32 := Host.absf main_arg0
  let main_cst : FVec F S_ .f32 := constant S_ .f32 0x7F800000#32
  let main_v1 : FVec F S1000x32 .f32 := broadcastInDim S1000x32 ![] bcast_S_S1000x32 main_cst
  let main_v2 : IVec S1000x32 1 := cmpf .olt main_v0 main_v1
  let main_c : IVec S_ 1 := constantI S_ 1 1#1
  let main_v3 : IVec S_ 1 := (fun x v => Host.reduce IntOp.andi x v reducesTo_S1000x32_S_d0_1 h_S_) main_v2 main_c
  let main_v4 : FVec F S1000x32 .f32 := Host.absf main_arg1
  let main_cst_0 : FVec F S_ .f32 := constant S_ .f32 0x7F800000#32
  let main_v5 : FVec F S1000x32 .f32 := broadcastInDim S1000x32 ![] bcast_S_S1000x32 main_cst_0
  let main_v6 : IVec S1000x32 1 := cmpf .olt main_v4 main_v5
  let main_c_1 : IVec S_ 1 := constantI S_ 1 1#1
  let main_v7 : IVec S_ 1 := (fun x v => Host.reduce IntOp.andi x v reducesTo_S1000x32_S_d0_1 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_c_4 : IVec S_ 32 := constantI S_ 32 0#32
  let main_v14 : IVec S2000000 32 := broadcastInDim S2000000 ![] bcast_S_S2000000 main_c_4
  let main_v15 : IVec S2000000 1 := cmpi .sge main_arg3 main_v14
  let main_c_5 : IVec S_ 1 := constantI S_ 1 1#1
  fn_part1 (F := F) main_arg3 main_v13 main_v15 main_c_5
-- ==== Kernel.lean ====
abbrev S1000x32 : Shape := ⟨2, ![1000, 32]⟩
abbrev S2000000 : Shape := ⟨1, ![2000000]⟩
abbrev S_ : Shape := ⟨0, ![]⟩
abbrev S1024x32 : Shape := ⟨2, ![1024, 32]⟩
abbrev S1 : Shape := ⟨1, ![1]⟩
abbrev S1024x64 : Shape := ⟨2, ![1024, 64]⟩
abbrev S2000000x1 : Shape := ⟨2, ![2000000, 1]⟩
abbrev S2000000x32 : Shape := ⟨2, ![2000000, 32]⟩
abbrev S2048x1 : Shape := ⟨2, ![2048, 1]⟩
abbrev S2048x32 : Shape := ⟨2, ![2048, 32]⟩
abbrev S2048x1024 : Shape := ⟨2, ![2048, 1024]⟩
abbrev S2048x64 : Shape := ⟨2, ![2048, 64]⟩
abbrev S100000x32 : Shape := ⟨2, ![100000, 32]⟩

abbrev nBuf : Space → Nat
  | .hbm => 23
  | .vmem => 7
  | .smem => 0
  | _ => 0

abbrev bufTy : (tb : Table) → Fin (tcTables nBuf tb) → BufTy
  | .hbm, ⟨0, _⟩ => ⟨S1000x32, .f32⟩
  | .hbm, ⟨1, _⟩ => ⟨S1000x32, .f32⟩
  | .hbm, ⟨2, _⟩ => ⟨S2000000, .f32⟩
  | .hbm, ⟨3, _⟩ => ⟨S2000000, .i32⟩
  | .hbm, ⟨4, _⟩ => ⟨S2000000, .i32⟩
  | .hbm, ⟨5, _⟩ => ⟨S_, .f32⟩
  | .hbm, ⟨6, _⟩ => ⟨S1024x32, .f32⟩
  | .hbm, ⟨7, _⟩ => ⟨S_, .i32⟩
  | .hbm, ⟨8, _⟩ => ⟨S1, .i32⟩
  | .hbm, ⟨9, _⟩ => ⟨S1024x32, .f32⟩
  | .hbm, ⟨10, _⟩ => ⟨S_, .f32⟩
  | .hbm, ⟨11, _⟩ => ⟨S1024x32, .f32⟩
  | .hbm, ⟨12, _⟩ => ⟨S_, .i32⟩
  | .hbm, ⟨13, _⟩ => ⟨S1, .i32⟩
  | .hbm, ⟨14, _⟩ => ⟨S1024x32, .f32⟩
  | .hbm, ⟨15, _⟩ => ⟨S1024x64, .f32⟩
  | .hbm, ⟨16, _⟩ => ⟨S2000000x1, .i32⟩
  | .hbm, ⟨17, _⟩ => ⟨S2000000x1, .f32⟩
  | .hbm, ⟨18, _⟩ => ⟨S2000000x32, .f32⟩
  | .hbm, ⟨19, _⟩ => ⟨S_, .f32⟩
  | .hbm, ⟨20, _⟩ => ⟨S100000x32, .f32⟩
  | .hbm, ⟨21, _⟩ => ⟨S2000000x1, .i32⟩
  | .hbm, ⟨22, _⟩ => ⟨S100000x32, .f32⟩
  | .local _ .vmem, ⟨0, _⟩ => ⟨S2048x1, .i32⟩
  | .local _ .vmem, ⟨1, _⟩ => ⟨S2048x1, .i32⟩
  | .local _ .vmem, ⟨2, _⟩ => ⟨S2048x1, .f32⟩
  | .local _ .vmem, ⟨3, _⟩ => ⟨S2048x1, .f32⟩
  | .local _ .vmem, ⟨4, _⟩ => ⟨S1024x64, .f32⟩
  | .local _ .vmem, ⟨5, _⟩ => ⟨S2048x32, .f32⟩
  | .local _ .vmem, ⟨6, _⟩ => ⟨S2048x32, .f32⟩
  | _, _ => ⟨S1000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![977], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024x32 : S_.BroadcastsInDim S1024x32 (![] : Fin 0 → Fin S1024x32.rank)
  bcast_S_S1 : S_.BroadcastsInDim S1 (![] : Fin 0 → Fin S1.rank)
  concatenates_S1024x32_S1024x32_S1024x64_d1 : Shape.Concatenates [S1024x32, S1024x32] S1024x64 1
  bcast_S2000000_S2000000x1_0 : S2000000.BroadcastsInDim S2000000x1 (![0] : Fin 1 → Fin S2000000x1.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1024_d1_w32 : S2048x1024.Iotas .tc 32 [1]
  broadcasts_S2048x1_S2048x1024 : S2048x1.Broadcasts S2048x1024
  natLt_1_32 : 1 < 32
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  slices_S2048x64_o0_0_S2048x32 : S2048x64.Slices ![0, 0] S2048x32
  slices_S2048x64_o0_32_S2048x32 : S2048x64.Slices ![0, 32] S2048x32
  broadcasts_S2048x1_S2048x32 : S2048x1.Broadcasts S2048x32
  inb_S2048x32_S2048x32_0_0 : ∀ a, (![0, 0] : Fin 2 → Nat) a + S2048x32.size a ≤ S2048x32.size a
  h_S2048x32 : 0 < S2048x32.numel
  bcast_S_S100000x32 : S_.BroadcastsInDim S100000x32 (![] : Fin 0 → Fin S100000x32.rank)
  scatter_S1024x32_S1_S1000x32_01_n_0_0_wf : ScatterDims.WF S1024x32 S1 S1000x32 [0, 1] [] [0] 0
  dot_S2048x1024_S1024x64_S2048x64_1_0_0_1_n_n_wf : DotDims.WF S2048x1024 S1024x64 S2048x64 [1] [0] [0] [1] [] []
  scatter_S100000x32_S2000000x1_S2000000x32_1_0_0_1_wf : ScatterDims.WF S100000x32 S2000000x1 S2000000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x1.size a < S2000000x1.size a
  hwx0_0 : ∀ i : grid0.Coords, EltTy.bits .i32 = 32 ∨ (Rect.unit (s := S2000000x1) (fun a => cc0_transform_0 i a * S2048x1.size a) (fun a => (Pipeline.Clip.of (cc0_transform_0 i a) (S2048x1.size a) (S2000000x1.size a)).extent (S2048x1.size a)) fun a => Pipeline.Clip.inb (Pipeline.Clip.ok_of (hstart0_0 i a))).WholeWords (EltTy.packing .i32)
  hwxs0_0 : ∀ i : grid0.Coords, EltTy.bits .i32 = 32 ∨ (Rect.unit (s := S2048x1) (fun _ => 0) (fun a => (Pipeline.Clip.of (cc0_transform_0 i a) (S2048x1.size a) (S2000000x1.size a)).extent (S2048x1.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1.size a < S2000000x1.size a
  hwx0_1 : ∀ i : grid0.Coords, EltTy.bits .f32 = 32 ∨ (Rect.unit (s := S2000000x1) (fun a => cc0_transform_1 i a * S2048x1.size a) (fun a => (Pipeline.Clip.of (cc0_transform_1 i a) (S2048x1.size a) (S2000000x1.size a)).extent (S2048x1.size a)) fun a => Pipeline.Clip.inb (Pipeline.Clip.ok_of (hstart0_1 i a))).WholeWords (EltTy.packing .f32)
  hwxs0_1 : ∀ i : grid0.Coords, EltTy.bits .f32 = 32 ∨ (Rect.unit (s := S2048x1) (fun _ => 0) (fun a => (Pipeline.Clip.of (cc0_transform_1 i a) (S2048x1.size a) (S2000000x1.size a)).extent (S2048x1.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2048x32.size a < S2000000x32.size a
  hwx0_3 : ∀ i : grid0.Coords, EltTy.bits .f32 = 32 ∨ (Rect.unit (s := S2000000x32) (fun a => cc0_transform_3 i a * S2048x32.size a) (fun a => (Pipeline.Clip.of (cc0_transform_3 i a) (S2048x32.size a) (S2000000x32.size a)).extent (S2048x32.size a)) fun a => Pipeline.Clip.inb (Pipeline.Clip.ok_of (hstart0_3 i a))).WholeWords (EltTy.packing .f32)
  hwxs0_3 : ∀ i : grid0.Coords, EltTy.bits .f32 = 32 ∨ (Rect.unit (s := S2048x32) (fun _ => 0) (fun a => (Pipeline.Clip.of (cc0_transform_3 i a) (S2048x32.size a) (S2000000x32.size a)).extent (S2048x32.size a)) fun a => (Nat.zero_add _).trans_le (Pipeline.Clip.extent_le (Pipeline.Clip.ok_of (hstart0_3 i a)))).WholeWords (EltTy.packing .f32)

variable [Facts₀]

def scatter_S1024x32_S1_S1000x32_01_n_0_0 : ScatterDims S1024x32 S1 S1000x32 where
  updateWindowDims := [0, 1]
  insertedWindowDims := []
  scatterDimsToOperandDims := [0]
  indexVectorDim := 0
  wf := scatter_S1024x32_S1_S1000x32_01_n_0_0_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf

abbrev win0_0 : Pipeline.Window sig grid0 :=
  Pipeline.Window.ofSpecClip (Memref.whole main_v7) S2048x1.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v8) S2048x1.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v6) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v9) S2048x32.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000x32 : Shape := ⟨2, ![1000, 32]⟩
abbrev S2000000 : Shape := ⟨1, ![2000000]⟩
abbrev S_ : Shape := ⟨0, ![]⟩
abbrev S2000000x1 : Shape := ⟨2, ![2000000, 1]⟩
abbrev S2000000x32 : Shape := ⟨2, ![2000000, 32]⟩
abbrev S100000x32 : Shape := ⟨2, ![100000, 32]⟩

abbrev nBuf : Space → Nat
  | .hbm => 35
  | .vmem => 0
  | .smem => 0
  | _ => 0

abbrev bufTy : (tb : Table) → Fin (tcTables nBuf tb) → BufTy
  | .hbm, ⟨0, _⟩ => ⟨S1000x32, .f32⟩
  | .hbm, ⟨1, _⟩ => ⟨S1000x32, .f32⟩
  | .hbm, ⟨2, _⟩ => ⟨S2000000, .f32⟩
  | .hbm, ⟨3, _⟩ => ⟨S2000000, .i32⟩
  | .hbm, ⟨4, _⟩ => ⟨S2000000, .i32⟩
  | .hbm, ⟨5, _⟩ => ⟨S_, .i32⟩
  | .hbm, ⟨6, _⟩ => ⟨S2000000, .i32⟩
  | .hbm, ⟨7, _⟩ => ⟨S2000000, .i1⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000x1, .i32⟩
  | .hbm, ⟨13, _⟩ => ⟨S2000000x32, .f32⟩
  | .hbm, ⟨14, _⟩ => ⟨S_, .f32⟩
  | .hbm, ⟨15, _⟩ => ⟨S2000000x32, .f32⟩
  | .hbm, ⟨16, _⟩ => ⟨S2000000x32, .f32⟩
  | .hbm, ⟨17, _⟩ => ⟨S2000000x1, .f32⟩
  | .hbm, ⟨18, _⟩ => ⟨S_, .i32⟩
  | .hbm, ⟨19, _⟩ => ⟨S2000000, .i32⟩
  | .hbm, ⟨20, _⟩ => ⟨S2000000, .i1⟩
  | .hbm, ⟨21, _⟩ => ⟨S_, .i32⟩
  | .hbm, ⟨22, _⟩ => ⟨S2000000, .i32⟩
  | .hbm, ⟨23, _⟩ => ⟨S2000000, .i32⟩
  | .hbm, ⟨24, _⟩ => ⟨S2000000, .i32⟩
  | .hbm, ⟨25, _⟩ => ⟨S2000000x1, .i32⟩
  | .hbm, ⟨26, _⟩ => ⟨S2000000x32, .f32⟩
  | .hbm, ⟨27, _⟩ => ⟨S2000000x32, .f32⟩
  | .hbm, ⟨28, _⟩ => ⟨S2000000x32, .f32⟩
  | .hbm, ⟨29, _⟩ => ⟨S2000000x32, .f32⟩
  | .hbm, ⟨30, _⟩ => ⟨S2000000x32, .f32⟩
  | .hbm, ⟨31, _⟩ => ⟨S_, .f32⟩
  | .hbm, ⟨32, _⟩ => ⟨S100000x32, .f32⟩
  | .hbm, ⟨33, _⟩ => ⟨S2000000x1, .i32⟩
  | .hbm, ⟨34, _⟩ => ⟨S100000x32, .f32⟩
  | _, _ => ⟨S1000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x32 : S_.BroadcastsInDim S2000000x32 (![] : Fin 0 → Fin S2000000x32.rank)
  bcast_S2000000x1_S2000000x32_0_1 : S2000000x1.BroadcastsInDim S2000000x32 (![0, 1] : Fin 2 → Fin S2000000x32.rank)
  bcast_S_S100000x32 : S_.BroadcastsInDim S100000x32 (![] : Fin 0 → Fin S100000x32.rank)
  gather_S1000x32_S2000000x1_S2000000x32_1_0_n_n_0_1_132_wf : GatherDims.WF S1000x32 S2000000x1 S2000000x32 [1] [0] [] [0] [] 1 ![1, 32]
  scatter_S100000x32_S2000000x1_S2000000x32_1_0_0_1_wf : ScatterDims.WF S100000x32 S2000000x1 S2000000x32 [1] [0] [0] 1

variable [Facts₀]

def gather_S1000x32_S2000000x1_S2000000x32_1_0_n_n_0_1_132 : GatherDims S1000x32 S2000000x1 S2000000x32 where
  offsetDims := [1]
  collapsedSliceDims := [0]
  operandBatchingDims := []
  startIndicesBatchingDims := []
  startIndexMap := [0]
  indexVectorDim := 1
  sliceSizes := ![1, 32]
  wf := gather_S1000x32_S2000000x1_S2000000x32_1_0_n_n_0_1_132_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf

class Facts : Prop extends Facts₀ where

variable [Facts]
-- ==== Proof.KBody.lean ====
/-
  The kernel body as a triple: run on the four staging buffers of a grid point it loads the
  column of gene words, the table and the column of positions, and stores the payload of those three into the result's
  buffer; the three inputs' buffers are left as found.
-/
import proofs.«426888_j22823456211151_2_alg».proof.Proof.Gen.Kernel.Frame
import proofs.«426888_j22823456211151_2_alg».proof.Proof.Gen.Kernel.Skeleton
import Idealize.ShloMosaic.Lib.Pipeline.Kit
import Idealize.ShloMosaic.Lib.Pipeline.Value
import Idealize.ShloMosaic.Lib.Tactic

noncomputable section

namespace Cert.Kernel.Body

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel's variants: none. -/
abbrev 𝒱₀ : Variants := Variants.none

/-! ## Whole accesses through any view

Every access of the kernel body is at offsets zero and its memref's own sizes. Such a load reads what the view reads,
and after such an unmasked store the view reads the payload. Both hold of every view — nothing is asked of the buffer
behind it —, so the body's triple below is proved once for whichever staging buffer of its window each memref is. -/

section Whole

variable {sg : RefSig} {κ : Kind} {sp : Space} {s : Shape} {e : EltTy} {Val : EltTy → Type}

/-- A load through the whole-shape rectangle at zero offsets (however the zeros are spelt) reads what the view reads:
    the rectangle's index map is the identity. -/
private theorem readAt_unit_zero (v : View sg κ sp s e) {off : Fin s.rank → ℕ} (h : off = fun _ => 0)
    (inb : ∀ a, off a + s.size a ≤ s.size a) (f : v.ty.Contents Val) :
    v.readAt Val (Rect.unit off s.size inb).toLoadRect f = v.read Val f :=
  View.ld_unit_zero h inb (v.read Val f)

/-- After an unmasked store through the whole-shape rectangle at zero offsets the view reads the payload: every index
    of the view is the rectangle's image of itself, and there the store wrote the payload. -/
private theorem read_write_unit_zero (v : View sg κ sp s e) {off : Fin s.rank → ℕ} (h : off = fun _ => 0)
    (inb : ∀ a, off a + s.size a ≤ s.size a) (f : v.ty.Contents Val) (w : s.Idx → Val e) :
    v.read Val ((v.slice (Rect.unit off s.size inb)).write Val f w Finset.univ) = w := by
  subst h
  funext x
  have hx := View.read_slice_write_emb (v := v) (Val := Val) (Rect.whole s) f w (M := Finset.univ) (x := x) (Finset.mem_univ x)
  rwa [Rect.emb_whole_apply] at hx

end Whole

/-! ## The kernel body's triple -/

/-- The kernel body on staging buffers `s0`, `s1`, `s2`, `s3` of its four windows, owned at contents `X0`, `X1`,
    `X2`, `X3`: the whole loads of the first three, the dead whole load of the result's, the whole unmasked store of
    the payload of what was loaded — the result's buffer ends holding `k0_pay1 X0 X2 X1`, the other three unchanged.
    The payload stays a name throughout. -/
theorem sound_body (c : Dev nD) (E : Set ℕ) (i : grid0.Coords) (s0 : Fin 2) (s1 : Fin 2) (s2 : Fin 1) (s3 : Fin 2)
    (X0 : S2048x1.Idx → Elt F .i32) (X1 : S2048x1.Idx → Elt F .f32) (X2 : S1024x64.Idx → Elt F .f32)
    (X3 : S2048x32.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 (F := F) X0 X2 X1)) -∗ K ⟨⟩))
      ⊢ wp frame (wpE (defs₀ (F := F)) 𝒱₀ c none) E
          (cc0__gather_exp_kernel i (stage0_0 s0) (hstage0_0 s0) (stage0_1 s1) (hstage0_1 s1) (stage0_2 s2) (hstage0_2 s2)
            (stage0_3 s3) (hstage0_3 s3)) K := by
  -- the printed offsets are zero on both axes
  have hz : (![0, 0] : Fin 2 → ℕ) = fun _ => 0 := funext fun a => by fin_cases a <;> rfl
  -- the body as its memory operations over the payload's name
  simp only [cc0__gather_exp_kernel_eq_skeleton]; unfold cc0__gather_exp_kernel_skel
  simp only [Prog.lift, Prog.bind_op, Prog.bind_ret]
  -- each memref is owned as the elements under its view, at raw contents `fK` that its view reads as `XK`
  unfold owns
  iintro ⟨⟨⟨%f0, %hf0, H0⟩, ⟨%f1, %hf1, H1⟩, ⟨%f2, %hf2, H2⟩, ⟨%f3, %hf3, H3⟩⟩, Hk⟩
  -- four loads and the store, each inside the elements its memref's view holds
  sl_steps
  iapply Hk
  -- the three live loads read `X0`, `X2`, `X1`
  have e0 := (readAt_unit_zero (stage0_0 s0).view hz inb_S2048x1_S2048x1_0_0 f0).trans hf0
  have e1 := (readAt_unit_zero (stage0_1 s1).view hz inb_S2048x1_S2048x1_0_0 f1).trans hf1
  have e2 := (readAt_unit_zero (stage0_2 s2).view hz inb_S1024x64_S1024x64_0_0 f2).trans hf2
  rw [e0, e1, e2]
  -- the inputs' buffers are as found
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  -- the result's buffer holds the stored contents, which its view reads as the payload
  · iexists _; isplitr
    · ipureintro; exact read_write_unit_zero (stage0_3 s3).view hz inb_S2048x32_S2048x32_0_0 f3 _
    · iexact H3

end Cert.Kernel.Body

end
-- ==== Proof.KFrame.lean ====
/-
  The frame of the kernel as printed (words): every weakly fair execution of @main terminates, nothing faults, and
  the five argument arrays end as they were launched.

  The region stages the column of gene words, the column of positions and the table, and writes the payload block
  back. The two columns and the result have 2000000 rows in blocks of 2048, so the last block of each overhangs its
  array: of an input's staging buffer only the rows inside the array are named (the block there; past the array's end
  whatever the buffer held), and of the result's nothing is named at all — the rows past the end of what the body
  computes are a function of words nothing names, and the matrix product does not act row by row on words, so no row
  of the payload can be stated from the named rows alone. The frame does not read the result: its window is forgotten,
  handed to the body at any contents and taken back at any. The arguments are none of the windows' arrays and none of
  the buffers the four host operations after the region write; so they end at what the region found, which is what
  was launched, since no host operation before the region writes them either.
-/
import proofs.«426888_j22823456211151_2_alg».proof.Defs
import proofs.«426888_j22823456211151_2_alg».proof.Proof.KBody
import proofs.«426888_j22823456211151_2_alg».proof.Proof.Gen.Kernel.Frame
import proofs.«426888_j22823456211151_2_alg».proof.Proof.Gen.Pre_finite_inputs

noncomputable section

namespace Cert.Kernel.FrameProof

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Data

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The window of which nothing is named: the result's. -/
def forgets : Fin 4 → Bool := fun | 0 => false | 1 => false | 2 => false | 3 => true | ⟨_ + 4, h⟩ => absurd h (Nat.not_lt.2 (Nat.le_add_left _ _))

/-- The proof data of the pipeline on core `c`: the arrays as the region finds them; after the body at point `t` the
    gene words' and the positions' buffers at their blocks, filled out past the array's end with the zero word (which
    nothing reads: both windows are stated on the rows inside the array only), the table's buffer at the table, the
    result's buffer unnamed; the invariant the scratch buffers and the generator register; nothing owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => win0_0.fill (grid0.coords t) (fun _ => (0#32 : BitVec 32)) (Gen.iblk m c 0 t)
    | ⟨1, _⟩ => win0_1.fill (grid0.coords t) (fun _ => (Scalar.ofBits .f32 0#32 : F .f32)) (Gen.iblk m c 1 t)
    | ⟨2, _⟩ => Gen.iblk m c 2 t
    | ⟨3, h⟩ => Pipeline.Dat.unnamed (cfg := cfg0) ⟨3, h⟩ t
  Φ _ := Pipeline.ΦA spec0 c
  q _ := fullShare
  owed _ := 0

/-- The proof data's arrays are the region-entry contents. -/
theorem A_eq (c : Dev nD) (w : Fin cfg0.W) : (dats m 0 c).A w = Gen.V m c (Pipeline.arrRef spec0 w) := by
  dsimp only [dats]

/-- What the body leaves in the three inputs' buffers, window by window. -/
theorem after_0 (c : Dev nD) (t : Fin cfg0.N) :
    (dats m 0 c).after 0 t = win0_0.fill (grid0.coords t) (fun _ => (0#32 : BitVec 32)) (Gen.iblk m c 0 t) := by
  dsimp only [dats]
theorem after_1 (c : Dev nD) (t : Fin cfg0.N) :
    (dats m 0 c).after 1 t = win0_1.fill (grid0.coords t) (fun _ => (Scalar.ofBits .f32 0#32 : F .f32)) (Gen.iblk m c 1 t) := by
  dsimp only [dats]
theorem after_2 (c : Dev nD) (t : Fin cfg0.N) : (dats m 0 c).after 2 t = Gen.iblk m c 2 t := by
  dsimp only [dats]

/-- What the body finds: the gene words' and the positions' buffers just fetched — the block on the rows inside the
    array, what the buffer held elsewhere —, -/
theorem before_0 (c : Dev nD) (t : Fin cfg0.N) (d) :
    (dats m 0 c).before 0 t d = win0_0.fill (grid0.coords t) d (Gen.iblk m c 0 t) := by
  unfold Dat.before; rw [if_pos (Gen.fetch0_0 t)]
  unfold Dat.fetched Dat.blockOf Gen.iblk; rw [A_eq]
theorem before_1 (c : Dev nD) (t : Fin cfg0.N) (d) :
    (dats m 0 c).before 1 t d = win0_1.fill (grid0.coords t) d (Gen.iblk m c 1 t) := by
  unfold Dat.before; rw [if_pos (Gen.fetch0_1 t)]
  unfold Dat.fetched Dat.blockOf Gen.iblk; rw [A_eq]
/-- and the table's buffer at the table, fetched at the first point and left in place by every body. -/
theorem before_2 (c : Dev nD) (t : Fin cfg0.N) (d) : (dats m 0 c).before 2 t d = Gen.iblk m c 2 t :=
  Gen.before0_2_of m (dats m 0 c) (A_eq m c 2) (after_2 m c) t d

end Data

section Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- The body obligation with the result's window forgotten, from the body's triple at the point's staging buffers:
    the gene words' and the positions' buffers arrive holding their blocks filled out with what the buffers held past
    the array's end, the table's holding the table, the result's holding anything; the body leaves the three inputs'
    buffers as found — on the rows inside the array the blocks, which is all a clipped window's obligation states, and
    the table whole — and the result's at the payload, of which nothing is asked. -/
theorem body_obligation (c : Dev nD) :
    BodyObligationLoose (dats m 0 c) (defs₀ (F := F)) Body.𝒱₀ () Set.univ forgets := fun t => by
  rw [Gen.bigSep_W0, Gen.bigSep_W0]
  simp only [forgets]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%X3, H3⟩⟩
  rw [before_0 m c t d0, before_1 m c t d1, before_2 m c t d2]
  iapply (Body.sound_body (F := F) c Set.univ (grid0.coords t) (cfg0.slots t 0) (cfg0.slots t 1) (cfg0.slots t 2) (cfg0.slots t 3)
    (win0_0.fill (grid0.coords t) d0 (Gen.iblk m c 0 t)) (win0_1.fill (grid0.coords t) d1 (Gen.iblk m c 1 t)) (Gen.iblk m c 2 t) X3 _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  -- on the rows inside the array the inputs' buffers hold their blocks, whatever fills them out past its end
  have h0 : win0_0.cut (grid0.coords t) ((dats m 0 c).after 0 t) = Gen.iblk m c 0 t := by
    rw [after_0]; exact win0_0.cut_fill _ _ _
  have h1 : win0_1.cut (grid0.coords t) ((dats m 0 c).after 1 t) = Gen.iblk m c 1 t := by
    rw [after_1]; exact win0_1.cut_fill _ _ _
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [h0]
  isplitl [H1]
  · iexists d1
    change _ ⊢ owns (c : Thread nD τ) (stage0_1 (cfg0.slots t 1)) fullShare
      (win0_1.fill (grid0.coords t) d1 (win0_1.cut (grid0.coords t) ((dats m 0 c).after 1 t)))
    rw [h1]
  isplitl [H2]
  · rw [after_2]; iexact H2
  · iexists _; iexact H3

end Body

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- The buffers the four host operations after the region write: the zero constant, its broadcast, the segment ids'
    column and the segment sums. -/
def T : Finset (Ref sig .tc) := {main_cst_2, main_v10, main_v11, main_v12}

/-- Each host operation after the region writes its own result buffer, one of those four. -/
theorem sfx_writes : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl
  all_goals
    intro b hb
    simp only [StableHlo.nullary_writes, StableHlo.unary_writes, StableHlo.ternary_writes, Finset.mem_singleton] at hb
    obtain rfl := Proc.devRef_injective (τ := τ) _ hb
    decide

set_option backward.isDefEq.respectTransparency.types false in
/-- At the compiled mesh, for any values, from any memory with zero counters: every weakly fair execution of @main on
    the TensorCores terminates, and in every final state each unscoped buffer that is no window's array and that no host
    operation after the region writes holds what it held when the region was entered. -/
theorem run_main : θ_run defs (onTc (τ := τ) (main (F := F))) (s₀ m ρ)
    (Pipeline.RDat.FramePostR (cfgs 0) (fun c => (dats m 0 c).toRForget forgets) T (Gen.V m)) :=
  Pipeline.RDat.θ_run_frame_around_T cfgs (0 : Fin 1) Gen.launch0 defs₀ Body.𝒱₀ (fun c => (dats m 0 c).toRForget forgets) T m ρ main
    (hbody := fun c => (body_obligation m c).toRForget)
    (hshare := fun c => ((dats m 0 c).toRForget forgets).share_full fun _ => rfl)
    (howed := fun _ _ => rfl) (V₀ := Gen.V0 m) (opss := [hostOps1])
    (hsub := Gen.sfx_sub) (hfresh := Gen.sfx_fresh) (hkeep := Gen.sfx_keeps) (hT := sfx_writes)
    (hmain := Gen.hmain m Body.𝒱₀) (hA := A_eq m) (hΦ := fun _ _ => rfl)

end Run

/-! ## The frame -/

/-- `Cert.frame_Kernel` (Defs.lean): the run at the word-level instance, read at the five arguments — each an unscoped
    buffer that is no window's array (the windows stage the two columns' copies, the table and the result) and none
    of the four buffers written after the region, so it ends at what the region found, which no host operation before
    the region had written: what was launched. -/
theorem frame : Cert.frame_Kernel := by
  intro m ρ _
  exact (θ_run defs _ _).mono (fun _ h c =>
    ⟨((h c).2 main_arg0 (Finset.mem_sdiff.mpr ⟨Pipeline.mem_restRefs_of main_arg0 (by decide) (by decide), by decide⟩)).trans (Gen.V_main_arg0 m c),
      ((h c).2 main_arg1 (Finset.mem_sdiff.mpr ⟨Pipeline.mem_restRefs_of main_arg1 (by decide) (by decide), by decide⟩)).trans (Gen.V_main_arg1 m c),
      ((h c).2 main_arg2 (Finset.mem_sdiff.mpr ⟨Pipeline.mem_restRefs_of main_arg2 (by decide) (by decide), by decide⟩)).trans (Gen.V_main_arg2 m c),
      ((h c).2 main_arg3 (Finset.mem_sdiff.mpr ⟨Pipeline.mem_restRefs_of main_arg3 (by decide) (by decide), by decide⟩)).trans (Gen.V_main_arg3 m c),
      ((h c).2 main_arg4 (Finset.mem_sdiff.mpr ⟨Pipeline.mem_restRefs_of main_arg4 (by decide) (by decide), by decide⟩)).trans (Gen.V_main_arg4 m c)⟩)
    (run_main (F := Bits) m ρ)

end Cert.Kernel.FrameProof

end
-- ==== Proof.KIBody.lean ====
/-
  The kernel body as a triple: run on the four staging buffers of a grid point it loads the
  column of gene words, the table and the column of positions, and stores the payload of those three into the result's
  buffer; the three inputs' buffers are left as found.
-/
import proofs.«426888_j22823456211151_2_alg».proof.Proof.Gen.KernelIdeal.Frame
import proofs.«426888_j22823456211151_2_alg».proof.Proof.Gen.KernelIdeal.Skeleton
import Idealize.ShloMosaic.Lib.Pipeline.Kit
import Idealize.ShloMosaic.Lib.Pipeline.Value
import Idealize.ShloMosaic.Lib.Tactic

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel's variants: none. -/
abbrev 𝒱₀ : Variants := Variants.none

/-! ## Whole accesses through any view

Every access of the kernel body is at offsets zero and its memref's own sizes. Such a load reads what the view reads,
and after such an unmasked store the view reads the payload. Both hold of every view — nothing is asked of the buffer
behind it —, so the body's triple below is proved once for whichever staging buffer of its window each memref is. -/

section Whole

variable {sg : RefSig} {κ : Kind} {sp : Space} {s : Shape} {e : EltTy} {Val : EltTy → Type}

/-- A load through the whole-shape rectangle at zero offsets (however the zeros are spelt) reads what the view reads:
    the rectangle's index map is the identity. -/
private theorem readAt_unit_zero (v : View sg κ sp s e) {off : Fin s.rank → ℕ} (h : off = fun _ => 0)
    (inb : ∀ a, off a + s.size a ≤ s.size a) (f : v.ty.Contents Val) :
    v.readAt Val (Rect.unit off s.size inb).toLoadRect f = v.read Val f :=
  View.ld_unit_zero h inb (v.read Val f)

/-- After an unmasked store through the whole-shape rectangle at zero offsets the view reads the payload: every index
    of the view is the rectangle's image of itself, and there the store wrote the payload. -/
private theorem read_write_unit_zero (v : View sg κ sp s e) {off : Fin s.rank → ℕ} (h : off = fun _ => 0)
    (inb : ∀ a, off a + s.size a ≤ s.size a) (f : v.ty.Contents Val) (w : s.Idx → Val e) :
    v.read Val ((v.slice (Rect.unit off s.size inb)).write Val f w Finset.univ) = w := by
  subst h
  funext x
  have hx := View.read_slice_write_emb (v := v) (Val := Val) (Rect.whole s) f w (M := Finset.univ) (x := x) (Finset.mem_univ x)
  rwa [Rect.emb_whole_apply] at hx

end Whole

/-! ## The kernel body's triple -/

/-- The kernel body on staging buffers `s0`, `s1`, `s2`, `s3` of its four windows, owned at contents `X0`, `X1`,
    `X2`, `X3`: the whole loads of the first three, the dead whole load of the result's, the whole unmasked store of
    the payload of what was loaded — the result's buffer ends holding `k0_pay1 X0 X2 X1`, the other three unchanged.
    The payload stays a name throughout. -/
theorem sound_body (c : Dev nD) (E : Set ℕ) (i : grid0.Coords) (s0 : Fin 2) (s1 : Fin 2) (s2 : Fin 1) (s3 : Fin 2)
    (X0 : S2048x1.Idx → Elt F .i32) (X1 : S2048x1.Idx → Elt F .f32) (X2 : S1024x64.Idx → Elt F .f32)
    (X3 : S2048x32.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 (F := F) X0 X2 X1)) -∗ K ⟨⟩))
      ⊢ wp frame (wpE (defs₀ (F := F)) 𝒱₀ c none) E
          (cc0__gather_exp_kernel i (stage0_0 s0) (hstage0_0 s0) (stage0_1 s1) (hstage0_1 s1) (stage0_2 s2) (hstage0_2 s2)
            (stage0_3 s3) (hstage0_3 s3)) K := by
  -- the printed offsets are zero on both axes
  have hz : (![0, 0] : Fin 2 → ℕ) = fun _ => 0 := funext fun a => by fin_cases a <;> rfl
  -- the body as its memory operations over the payload's name
  simp only [cc0__gather_exp_kernel_eq_skeleton]; unfold cc0__gather_exp_kernel_skel
  simp only [Prog.lift, Prog.bind_op, Prog.bind_ret]
  -- each memref is owned as the elements under its view, at raw contents `fK` that its view reads as `XK`
  unfold owns
  iintro ⟨⟨⟨%f0, %hf0, H0⟩, ⟨%f1, %hf1, H1⟩, ⟨%f2, %hf2, H2⟩, ⟨%f3, %hf3, H3⟩⟩, Hk⟩
  -- four loads and the store, each inside the elements its memref's view holds
  sl_steps
  iapply Hk
  -- the three live loads read `X0`, `X2`, `X1`
  have e0 := (readAt_unit_zero (stage0_0 s0).view hz inb_S2048x1_S2048x1_0_0 f0).trans hf0
  have e1 := (readAt_unit_zero (stage0_1 s1).view hz inb_S2048x1_S2048x1_0_0 f1).trans hf1
  have e2 := (readAt_unit_zero (stage0_2 s2).view hz inb_S1024x64_S1024x64_0_0 f2).trans hf2
  rw [e0, e1, e2]
  -- the inputs' buffers are as found
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  -- the result's buffer holds the stored contents, which its view reads as the payload
  · iexists _; isplitr
    · ipureintro; exact read_write_unit_zero (stage0_3 s3).view hz inb_S2048x32_S2048x32_0_0 f3 _
    · iexact H3

end Cert.KernelIdeal.Body

end
-- ==== Proof.KIEntry.lean ====
/-
  The arrays the pallas_call of the idealized kernel finds when it is entered, read at an index: the 1024 x 64 table is
  the two argument tables side by side over their thousand rows, the column of gene words and the column of positions
  are the argument vectors.

  Each of the two halves of the table is a block of zeros into which the whole argument table is written at the one start
  index 0: a fold of single-element writes over the update's indices, each landing at its own row and column. Read at an
  element inside the block, the fold holds the update's element there (the landing map is injective, so exactly one write
  reaches it). The halves are then concatenated along the columns, and the two columns are broadcasts of the argument
  vectors along a new unit axis.
-/
import proofs.«426888_j22823456211151_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Entry

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## A fold of single-element writes, read at one element -/

section Fold
variable {ι N α : Type} (ri : N → Option ι) (u : N → α) (step : (ι → α) → N → (ι → α))

/-- Writes that all land elsewhere leave the element as it was. -/
private theorem foldl_write_miss (hmiss : ∀ r n i, ri n ≠ some i → step r n i = r i) (i0 : ι) :
    ∀ (L : List N), (∀ n ∈ L, ri n ≠ some i0) → ∀ x : ι → α, L.foldl step x i0 = x i0 := by
  intro L
  induction L with
  | nil => intro _ x; rfl
  | cons a L ih =>
    intro h x
    rw [List.foldl_cons, ih (fun n hn => h n (List.mem_cons_of_mem a hn)), hmiss x a i0 (h a List.mem_cons_self)]

/-- Over a list without repetition whose landing map is injective, the element where entry `n0` lands holds entry
    `n0`'s value after the fold: the writes before it are overwritten by it, those after it land elsewhere. -/
private theorem foldl_write_apply (hhit : ∀ r n i, ri n = some i → step r n i = u n)
    (hmiss : ∀ r n i, ri n ≠ some i → step r n i = r i)
    (hinj : ∀ n n' i, ri n = some i → ri n' = some i → n = n') (n0 : N) (i0 : ι) (h0 : ri n0 = some i0) :
    ∀ (L : List N), L.Nodup → n0 ∈ L → ∀ x : ι → α, L.foldl step x i0 = u n0 := by
  intro L
  induction L with
  | nil => intro _ h; exact absurd h List.not_mem_nil
  | cons a L ih =>
    intro hnd hmem x
    rw [List.foldl_cons]
    rcases List.mem_cons.mp hmem with rfl | hin
    · have hnot : n0 ∉ L := (List.nodup_cons.mp hnd).1
      rw [foldl_write_miss ri step hmiss i0 L (fun n hn e => hnot (hinj n n0 i0 e h0 ▸ hn)), hhit x n0 i0 h0]
    · exact ih (List.nodup_cons.mp hnd).2 hin _

end Fold

/-! ## An update block written at the top left of an array -/

/-- The dimension numbers of a `K × C` block written into an `N × C` array at one start index: both update axes window
    axes, no axis inserted, the operand's axis 0 scatter-indexed by the one start index, whose vector lies on axis 0 of
    the index array. -/
private abbrev topDims (N K C : Nat) (wf : ScatterDims.WF ⟨2, ![N, C]⟩ ⟨1, ![1]⟩ ⟨2, ![K, C]⟩ [0, 1] [] [0] 0) :
    ScatterDims ⟨2, ![N, C]⟩ ⟨1, ![1]⟩ ⟨2, ![K, C]⟩ where
  updateWindowDims := [0, 1]
  insertedWindowDims := []
  scatterDimsToOperandDims := [0]
  indexVectorDim := 0
  wf := wf

/-- On the operand's axis 0 update `q` lands at the start word read signed plus its own row. -/
private theorem top_landing0 {N K C w : Nat} (wf : ScatterDims.WF ⟨2, ![N, C]⟩ ⟨1, ![1]⟩ ⟨2, ![K, C]⟩ [0, 1] [] [0] 0)
    (idx : IVec ⟨1, ![1]⟩ w) (q : (⟨2, ![K, C]⟩ : Shape).Idx) :
    (topDims N K C wf).start q idx 0 + ((topDims N K C wf).window q 0 : ℤ)
      = (idx (ix1 (0 : Fin 1))).toInt + ((q 0).val : ℤ) := by
  unfold ScatterDims.start ScatterDims.window
  rw [dif_pos (show (0 : Fin 2) ∈ (topDims N K C wf).scatterDimsToOperandDims from List.mem_singleton.mpr rfl),
    dif_pos (show (0 : Fin 2) ∈ (topDims N K C wf).sKept by
      show (0 : Fin 2) ∈ (List.finRange 2).filter (· ∉ ([] : List (Fin 2))); decide)]
  have hsi : (topDims N K C wf).siIdx q ⟨List.idxOf (0 : Fin 2) (topDims N K C wf).scatterDimsToOperandDims,
      List.idxOf_lt_length_iff.2 (List.mem_singleton.mpr rfl)⟩ = ix1 (0 : Fin 1) := by
    funext b; refine Fin.ext ?_
    match b with
    | ⟨0, _⟩ => rfl
  rw [hsi]
  rfl

/-- On the operand's axis 1 update `q` lands at its own column: the axis is not scatter-indexed. -/
private theorem top_landing1 {N K C w : Nat} (wf : ScatterDims.WF ⟨2, ![N, C]⟩ ⟨1, ![1]⟩ ⟨2, ![K, C]⟩ [0, 1] [] [0] 0)
    (idx : IVec ⟨1, ![1]⟩ w) (q : (⟨2, ![K, C]⟩ : Shape).Idx) :
    (topDims N K C wf).start q idx 1 + ((topDims N K C wf).window q 1 : ℤ) = ((q 1).val : ℤ) := by
  unfold ScatterDims.start ScatterDims.window
  rw [dif_neg (show (1 : Fin 2) ∉ (topDims N K C wf).scatterDimsToOperandDims by
      show (1 : Fin 2) ∉ [(0 : Fin 2)]; decide),
    dif_pos (show (1 : Fin 2) ∈ (topDims N K C wf).sKept by
      show (1 : Fin 2) ∈ (List.finRange 2).filter (· ∉ ([] : List (Fin 2))); decide), Int.zero_add]
  rfl

/-- With the start word zero, update `q` lands inside the operand at its own row and column. -/
private theorem top_resultIdx {N K C w : Nat} (wf : ScatterDims.WF ⟨2, ![N, C]⟩ ⟨1, ![1]⟩ ⟨2, ![K, C]⟩ [0, 1] [] [0] 0)
    (hKN : K ≤ N) (idx : IVec ⟨1, ![1]⟩ w) (hz : (idx (ix1 (0 : Fin 1))).toInt = 0)
    (q : (⟨2, ![K, C]⟩ : Shape).Idx) :
    (topDims N K C wf).resultIdx? q idx
      = some (ix2 (⟨(q 0).val, lt_of_lt_of_le (idx2_lt0 q) hKN⟩ : Fin N) (⟨(q 1).val, idx2_lt1 q⟩ : Fin C)) := by
  have hl0 := top_landing0 wf idx q
  have hl1 := top_landing1 wf idx q
  rw [hz, Int.zero_add] at hl0
  have h0 := idx2_lt0 q
  have h1 := idx2_lt1 q
  unfold ScatterDims.resultIdx?
  have hc : ∀ a, 0 ≤ (topDims N K C wf).start q idx a + ((topDims N K C wf).window q a : ℤ) ∧
      (topDims N K C wf).start q idx a + ((topDims N K C wf).window q a : ℤ) < ((⟨2, ![N, C]⟩ : Shape).size a : ℤ) := by
    intro a
    match a with
    | ⟨0, _⟩ =>
      refine ⟨?_, ?_⟩
      · show 0 ≤ (topDims N K C wf).start q idx 0 + ((topDims N K C wf).window q 0 : ℤ)
        rw [hl0]; omega
      · show (topDims N K C wf).start q idx 0 + ((topDims N K C wf).window q 0 : ℤ) < (N : ℤ)
        rw [hl0]; omega
    | ⟨1, _⟩ =>
      refine ⟨?_, ?_⟩
      · show 0 ≤ (topDims N K C wf).start q idx 1 + ((topDims N K C wf).window q 1 : ℤ)
        rw [hl1]; omega
      · show (topDims N K C wf).start q idx 1 + ((topDims N K C wf).window q 1 : ℤ) < (C : ℤ)
        rw [hl1]; omega
  rw [dif_pos hc]
  congr 1
  funext a
  refine Fin.ext ?_
  match a with
  | ⟨0, _⟩ =>
    show ((topDims N K C wf).start q idx 0 + ((topDims N K C wf).window q 0 : ℤ)).toNat = (q 0).val
    rw [hl0]; simp
  | ⟨1, _⟩ =>
    show ((topDims N K C wf).start q idx 1 + ((topDims N K C wf).window q 1 : ℤ)).toNat = (q 1).val
    rw [hl1]; simp

/-- THE BLOCK WRITE READ INSIDE THE BLOCK: with the start word zero, element `(k, j)` of the result, `k` a row of the
    update, is the update's element `(k, j)`. Each update index lands at its own row and column, so no two land on one
    element, and the fold of writes read there holds that update's value. -/
private theorem scatter_top_apply {α : Type} {N K C w : Nat} (d : ScatterDims ⟨2, ![N, C]⟩ ⟨1, ![1]⟩ ⟨2, ![K, C]⟩)
    (huw : d.updateWindowDims = [0, 1]) (hiw : d.insertedWindowDims = []) (hsd : d.scatterDimsToOperandDims = [0])
    (hivd : d.indexVectorDim = 0) (hKN : K ≤ N)
    (x : (⟨2, ![N, C]⟩ : Shape).Idx → α) (idx : IVec ⟨1, ![1]⟩ w) (hz : (idx (ix1 (0 : Fin 1))).toInt = 0)
    (upd : (⟨2, ![K, C]⟩ : Shape).Idx → α) (k : Fin K) (j : Fin C) :
    Host.scatter d (fun _ b => b) x idx upd (ix2 (⟨k.val, lt_of_lt_of_le k.isLt hKN⟩ : Fin N) j) = upd (ix2 k j) := by
  obtain ⟨uw, iw, sd, ivd, wf⟩ := d
  simp only at huw hiw hsd hivd
  subst huw hiw hsd hivd
  show Host.scatter (topDims N K C wf) (fun _ b => b) x idx upd _ = _
  unfold Host.scatter
  conv_rhs => rw [← (⟨2, ![K, C]⟩ : Shape).rowMajor.symm_apply_apply (ix2 k j)]
  refine foldl_write_apply
    (ri := fun n : Fin (⟨2, ![K, C]⟩ : Shape).numel => (topDims N K C wf).resultIdx? ((⟨2, ![K, C]⟩ : Shape).rowMajor.symm n) idx)
    (u := fun n => upd ((⟨2, ![K, C]⟩ : Shape).rowMajor.symm n)) _
    ?hit ?miss ?inj ((⟨2, ![K, C]⟩ : Shape).rowMajor (ix2 k j)) (ix2 (⟨k.val, lt_of_lt_of_le k.isLt hKN⟩ : Fin N) j) ?h0
    (List.finRange _) (List.nodup_finRange _) (List.mem_finRange _) x
  case hit =>
    intro r n i h
    dsimp only at h ⊢
    rw [h]
    exact if_pos rfl
  case miss =>
    intro r n i' hne
    dsimp only at hne ⊢
    generalize (topDims N K C wf).resultIdx? ((⟨2, ![K, C]⟩ : Shape).rowMajor.symm n) idx = o at hne ⊢
    cases o with
    | none => rfl
    | some i => exact if_neg (fun e : i' = i => hne (congrArg some e.symm))
  case inj =>
    intro n n' i h h'
    rw [top_resultIdx wf hKN idx hz] at h h'
    have e := (Option.some.inj h).trans (Option.some.inj h').symm
    have e0 := congrArg Fin.val (congrFun e 0)
    have e1 := congrArg Fin.val (congrFun e 1)
    apply (⟨2, ![K, C]⟩ : Shape).rowMajor.symm.injective
    funext a
    refine Fin.ext ?_
    match a with
    | ⟨0, _⟩ => exact e0
    | ⟨1, _⟩ => exact e1
  case h0 =>
    rw [Equiv.symm_apply_apply, top_resultIdx wf hKN idx hz]
    rfl

/-! ## The arrays at the region's entry as the host operations' terms -/

/-- The table: the concatenation along the columns of the two argument tables, each written over a block of zeros at
    the start index 0. -/
private theorem V6_term (c : Dev nD) :
    (V m c main_v6 : S1024x64.Idx → Elt F .f32)
      = concatenate S1024x64 1
          [⟨S1024x32, Host.scatter scatter_S1024x32_S1_S1000x32_01_n_0_0 (fun _ b => b)
              (broadcastInDim S1024x32 ![] bcast_S_S1024x32 (constant (F := F) S_ .f32 0x00000000#32))
              (broadcastInDim S1 ![] bcast_S_S1 (constantI S_ 32 0#32))
              (m ((c : Thread nD τ).loc main_arg0) : S1000x32.Idx → Elt F .f32)⟩,
           ⟨S1024x32, Host.scatter scatter_S1024x32_S1_S1000x32_01_n_0_0 (fun _ b => b)
              (broadcastInDim S1024x32 ![] bcast_S_S1024x32 (constant (F := F) S_ .f32 0x00000000#32))
              (broadcastInDim S1 ![] bcast_S_S1 (constantI S_ 32 0#32))
              (m ((c : Thread nD τ).loc main_arg1) : S1000x32.Idx → Elt F .f32)⟩]
          concatenates_S1024x32_S1024x32_S1024x64_d1 := by
  show StableHlo.after hostOps0 (fun b => m (c, b)) (Proc.devRef .tc main_v6) = _
  after_results

/-- The column of gene words: the fourth argument broadcast along a new unit axis. -/
private theorem V7_term (c : Dev nD) :
    (V m c main_v7 : S2000000x1.Idx → Elt F .i32)
      = broadcastInDim S2000000x1 ![0] bcast_S2000000_S2000000x1_0 (m ((c : Thread nD τ).loc main_arg3) : S2000000.Idx → Elt F .i32) := by
  show StableHlo.after hostOps0 (fun b => m (c, b)) (Proc.devRef .tc main_v7) = _
  after_results

/-- The column of positions: the third argument broadcast along a new unit axis. -/
private theorem V8_term (c : Dev nD) :
    (V m c main_v8 : S2000000x1.Idx → Elt F .f32)
      = broadcastInDim S2000000x1 ![0] bcast_S2000000_S2000000x1_0 (m ((c : Thread nD τ).loc main_arg2) : S2000000.Idx → Elt F .f32) := by
  show StableHlo.after hostOps0 (fun b => m (c, b)) (Proc.devRef .tc main_v8) = _
  after_results

/-- A vector broadcast into a column, read at a row: the vector's element there. -/
private theorem column_apply {α : Type} (h : S2000000.BroadcastsInDim S2000000x1 (![0] : Fin 1 → Fin S2000000x1.rank))
    (x : S2000000.Idx → α) (r : Fin 2000000) :
    broadcastInDim S2000000x1 ![0] h x (ix2 r (0 : Fin 1)) = x (ix1 r) := by
  refine broadcastInDim_apply _ _ _ _ _ ?_
  intro a
  match a with
  | ⟨0, _⟩ =>
    show r.val = if (2000000 : Nat) = 1 then 0 else r.val
    rw [if_neg (by decide)]

/-- The one start index of the two block writes is the word zero. -/
private theorem start_zero :
    ((broadcastInDim S1 ![] bcast_S_S1 (constantI S_ 32 0#32) : IVec S1 32) (ix1 (0 : Fin 1))).toInt = 0 := by
  rfl

/-- A half of the table inside the argument's thousand rows is the argument. -/
private theorem half_apply (x : S1024x32.Idx → Elt F .f32) (upd : S1000x32.Idx → Elt F .f32) (k : Fin 1000) (j : Fin 32) :
    Host.scatter scatter_S1024x32_S1_S1000x32_01_n_0_0 (fun _ b => b) x
        (broadcastInDim S1 ![] bcast_S_S1 (constantI S_ 32 0#32)) upd (ix2 (⟨k.val, by omega⟩ : Fin 1024) j)
      = upd (ix2 k j) :=
  scatter_top_apply scatter_S1024x32_S1_S1000x32_01_n_0_0 rfl rfl rfl rfl (by decide) x _ start_zero upd k j

/-! ## The four reads -/

theorem table_left (c : Dev nD) (k : Fin 1000) (j : Fin 32) :
    (V m c main_v6 : S1024x64.Idx → Elt F .f32) (ix2 (⟨k.val, by omega⟩ : Fin 1024) (⟨j.val, by omega⟩ : Fin 64))
      = (m ((c : Thread nD τ).loc main_arg0) : S1000x32.Idx → Elt F .f32) (ix2 k j) := by
  rw [V6_term]
  refine (concatenate_pair_apply_left (t := S1024x64) (s₁ := S1024x32) (s₂ := S1024x32) (1 : Fin 2) _ _ _ _ rfl
    (ix2 (⟨k.val, by omega⟩ : Fin 1024) j) ?_).trans (half_apply _ _ k j)
  intro b
  match b with
  | ⟨0, _⟩ => rfl
  | ⟨1, _⟩ => rfl

theorem table_right (c : Dev nD) (k : Fin 1000) (j : Fin 32) :
    (V m c main_v6 : S1024x64.Idx → Elt F .f32) (ix2 (⟨k.val, by omega⟩ : Fin 1024) (⟨j.val + 32, by omega⟩ : Fin 64))
      = (m ((c : Thread nD τ).loc main_arg1) : S1000x32.Idx → Elt F .f32) (ix2 k j) := by
  rw [V6_term]
  refine (concatenate_pair_apply_right (t := S1024x64) (s₁ := S1024x32) (s₂ := S1024x32) (1 : Fin 2) _ _ _ _ rfl rfl
    (ix2 (⟨k.val, by omega⟩ : Fin 1024) j) ?_ rfl).trans (half_apply _ _ k j)
  intro b hb
  match b, hb with
  | ⟨0, _⟩, _ => rfl
  | ⟨1, _⟩, hb => exact absurd rfl hb

theorem genes_apply (c : Dev nD) (r : Fin 2000000) :
    (V m c main_v7 : S2000000x1.Idx → Elt F .i32) (ix2 r (0 : Fin 1))
      = (m ((c : Thread nD τ).loc main_arg3) : S2000000.Idx → Elt F .i32) (ix1 r) := by
  rw [V7_term]
  exact column_apply _ _ r

theorem pos_apply (c : Dev nD) (r : Fin 2000000) :
    (V m c main_v8 : S2000000x1.Idx → Elt F .f32) (ix2 r (0 : Fin 1))
      = (m ((c : Thread nD τ).loc main_arg2) : S2000000.Idx → Elt F .f32) (ix1 r) := by
  rw [V8_term]
  exact column_apply _ _ r

end Cert.KernelIdeal.Entry

end
-- ==== Proof.Spec.lean ====
/-
  What both programs compute, as one function of the argument arrays, index by index over the extended reals.

  Gene `r` carries a word `g r` naming a row of the two 1000 x 32 tables `A` and `B`, and a position `pos r`.
  Its row of the intermediate array is `exp ((A[g r, j] + 1) - pos r * B[g r, j])` for the 32 columns `j`; the result
  of either program is the sum of these rows over the genes of each segment, and that last step is the same host
  operation applied to this array on both sides, so only the array itself is specified here.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The tables' shape, the genes' shape and the intermediate array's shape. -/
abbrev STab : Shape := ⟨2, ![1000, 32]⟩
abbrev SGene : Shape := ⟨1, ![2000000]⟩
abbrev SOut : Shape := ⟨2, ![2000000, 32]⟩

/-- The table row a word names: the word read as a signed integer, cut into the tables' thousand rows (for a word in
    `[0, 1000)` the word itself). -/
def rowOf (w : BitVec 32) : Fin 1000 := ⟨min w.toInt.toNat 999, by omega⟩

/-- One element of the intermediate array from the two table entries and the position. -/
def expTerm (a b p : EReal) : EReal := Ideal.exp ((a + Ideal.ofBits .f32 0x3F800000#32) - p * b)

/-- The intermediate array at gene `r`, column `j`. -/
def Eat (A B : STab.Idx → EReal) (pos : SGene.Idx → EReal) (g : SGene.Idx → BitVec 32) (r : Fin 2000000) (j : Fin 32) : EReal :=
  expTerm (A (ix2 (rowOf (g (ix1 r))) j)) (B (ix2 (rowOf (g (ix1 r))) j)) (pos (ix1 r))

/-- The intermediate array. -/
def E (A B : STab.Idx → EReal) (pos : SGene.Idx → EReal) (g : SGene.Idx → BitVec 32) : SOut.Idx → EReal :=
  fun i => Eat A B pos g (i 0) (i 1)

theorem E_apply (A B : STab.Idx → EReal) (pos : SGene.Idx → EReal) (g : SGene.Idx → BitVec 32) (r : Fin 2000000) (j : Fin 32) :
    E A B pos g (ix2 r j) = Eat A B pos g r j := rfl

/-- Every gene's word names a table row: read signed it lies in `[0, 1000)`. -/
def InRange (g : SGene.Idx → BitVec 32) : Prop := ∀ r : Fin 2000000, 0 ≤ (g (ix1 r)).toInt ∧ (g (ix1 r)).toInt < 1000

/-- A word in range, read as a natural number, is its row. -/
theorem rowOf_val {w : BitVec 32} (h : 0 ≤ w.toInt ∧ w.toInt < 1000) : (rowOf w).val = w.toNat := by
  have h2 : w.toInt = (w.toNat : Int) := by
    rw [BitVec.toInt_eq_toNat_cond] at h ⊢
    split at h <;> split <;> omega
  show min w.toInt.toNat 999 = w.toNat
  omega

end Cert.Spec

end
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.KIPay.lean ====
/-
  The kernel body's arithmetic read at one element, over the extended reals.

  The body compares the column of gene words with the lane numbers 0..1023, giving each row a vector with a one in the
  lane the word names and zeros elsewhere, and multiplies that 2048 x 1024 matrix with the 1024 x 64 table on the matrix
  unit. A sum of zeros and a single one-times-entry is that entry, so row `r` of the product is the table's row at the
  word of row `r`: its first 32 columns the `A` entries, its last 32 the `B` entries. The stored value is
  `exp ((a + 1) - p * b)` of those and of the row's position `p`. Every step reads row `r` of the inputs only.
-/
import proofs.«426888_j22823456211151_2_alg».proof.Proof.Gen.KernelIdeal.Skeleton
import proofs.«426888_j22823456211151_2_alg».proof.Proof.Spec
import proofs.«426888_j22823456211151_2_alg».proof.Proof.LibPlainDot
import Idealize.ShloMosaic.Lib.Pipeline.Value
import Idealize.ShloMosaic.Lib.ValueIdx
import Idealize.ShloMosaic.Lib.StableHlo.Predicate
import Idealize.ShloMosaic.PureOps.Ideal.Laws

noncomputable section

open scoped BigOperators

namespace Cert.KernelIdeal.Pay

open Idealize.ShloMosaic Idealize.ShloMosaic.ValueIdx
open Cert.KernelIdeal Cert.KernelIdeal.Gen

/-- A one-bit word widened to 32 bits and read as a signed integer is one or zero. -/
theorem sitofp_extui (b : BitVec 1) :
    (FloatOps.sitofp (F := Ideal) .f32 (b.setWidth 32) : EReal) = if b = 1#1 then 1 else 0 := by
  show (((b.setWidth 32).toInt : ℝ) : EReal) = _
  by_cases h : b = 1#1
  · subst h; rw [if_pos rfl]; norm_num [show ((1#1 : BitVec 1).setWidth 32).toInt = 1 by decide]
  · have h0 : b = 0#1 := eq_zero_of_ne_one h
    subst h0; rw [if_neg (by decide)]; norm_num [show ((0#1 : BitVec 1).setWidth 32).toInt = 0 by decide]

/-- The compared-and-converted matrix: row `r`, lane `k` is one exactly when row `r`'s word is the lane number. -/
def oneHot (X0 : IVec S2048x1 32) : FVec Ideal S2048x1024 .bf16 :=
  truncf .bf16 (sitofp .f32 (extui 32 (cmpi .eq (broadcastTo S2048x1024 (shapeCast S2048x1 X0 shapeCasts_S2048x1_S2048x1) broadcasts_S2048x1_S2048x1024)
    (iota .tc S2048x1024 32 [1] iota_S2048x1024_d1_w32)) natLt_1_32)) bitsLt_bf16_f32

theorem oneHot_apply (X0 : IVec S2048x1 32) (r : Fin 2048) (k : Fin 1024) :
    oneHot X0 (ix2 r k) = if X0 (ix2 r (0 : Fin 1)) = BitVec.ofNat 32 k.val then (1 : EReal) else 0 := by
  unfold oneHot
  rw [truncf_apply, sitofp_apply, extui_apply, sitofp_extui]
  refine if_congr ?_ rfl rfl
  show IntOp.cmpi .eq _ _ = 1#1 ↔ _
  rw [StableHlo.Predicate.cmpi_eq_iff, iota_single_apply, shapeCast_self,
    broadcastTo_apply X0 broadcasts_S2048x1_S2048x1024 (ix2 r k) (ix2 r (0 : Fin 1)) (fun a => by
      match a with
      | ⟨0, _⟩ => rfl
      | ⟨1, _⟩ => rfl)]

/-- A word below 1024 is the number of exactly one lane. -/
theorem ofNat_eq_iff (w : BitVec 32) (k : Fin 1024) : w = BitVec.ofNat 32 k.val ↔ w.toNat = k.val := by
  have hk : k.val < 2 ^ 32 := lt_trans k.isLt (by norm_num)
  constructor
  · intro h; rw [h, BitVec.toNat_ofNat, Nat.mod_eq_of_lt hk]
  · intro h; apply BitVec.eq_of_toNat_eq; rw [BitVec.toNat_ofNat, Nat.mod_eq_of_lt hk, h]

/-- Row `r` of the one-hot matrix times a table: the table's row at the word of row `r` (a sum of zeros and one
    entry, on the extended reals, where zero times anything is zero). -/
theorem oneHot_row_sum (X0 : IVec S2048x1 32) (T : (⟨2, ![1024, 64]⟩ : Shape).Idx → EReal) (r : Fin 2048) (q : Fin 64)
    (hw : (X0 (ix2 r (0 : Fin 1))).toNat < 1024) :
    ∑ k : Fin 1024, oneHot X0 (ix2 r k) * T (ix2 k q) = T (ix2 (⟨(X0 (ix2 r (0 : Fin 1))).toNat, hw⟩ : Fin 1024) q) := by
  rw [Finset.sum_eq_single (⟨(X0 (ix2 r (0 : Fin 1))).toNat, hw⟩ : Fin 1024)]
  · rw [oneHot_apply, if_pos ((ofNat_eq_iff _ _).mpr rfl), one_mul]
  · intro k _ hk
    rw [oneHot_apply, if_neg (fun h => hk (Fin.ext ((ofNat_eq_iff _ _).mp h).symm)), zero_mul]
  · intro h; exact absurd (Finset.mem_univ _) h

theorem pay_apply (X0 : Vec Ideal S2048x1 .i32) (X2 : Vec Ideal S1024x64 .f32) (X1 : Vec Ideal S2048x1 .f32)
    (r : Fin 2048) (j : Fin 32) (hw : (X0 (ix2 r (0 : Fin 1))).toNat < 1024) :
    k0_pay1 (F := Ideal) X0 X2 X1 (ix2 r j)
      = Cert.Spec.expTerm (X2 (ix2 (⟨(X0 (ix2 r (0 : Fin 1))).toNat, hw⟩ : Fin 1024) (⟨j.val, by omega⟩ : Fin 64)))
          (X2 (ix2 (⟨(X0 (ix2 r (0 : Fin 1))).toNat, hw⟩ : Fin 1024) (⟨j.val + 32, by omega⟩ : Fin 64)))
          (X1 (ix2 r (0 : Fin 1))) := by
  have hT : (truncf .bf16 (shapeCast S1024x64 X2 shapeCasts_S1024x64_S1024x64) bitsLt_bf16_f32 : FVec Ideal S1024x64 .bf16) = X2 := by
    rw [shapeCast_self]; rfl
  have hM : matmul dot_S2048x1024_S1024x64_S2048x64_1_0_0_1_n_n none (oneHot X0)
      (truncf .bf16 (shapeCast S1024x64 X2 shapeCasts_S1024x64_S1024x64) bitsLt_bf16_f32 : FVec Ideal S1024x64 .bf16)
      (constant S2048x64 .f32 0x00000000#32) = Cert.LibPlainDot.matProd (M := 2048) (K := 1024) (N := 64) (oneHot X0) X2 := by
    rw [hT]
    exact Cert.LibPlainDot.matmul_zero_eq_matProd dot_S2048x1024_S1024x64_S2048x64_1_0_0_1_n_n rfl rfl rfl rfl rfl rfl none (oneHot X0) X2
  unfold k0_pay1
  dsimp only
  rw [← oneHot.eq_1 X0, hM]
  show Ideal.exp ((extractStridedSlice S2048x32 ![0, 0] (Cert.LibPlainDot.matProd (M := 2048) (K := 1024) (N := 64) (oneHot X0) X2) slices_S2048x64_o0_0_S2048x32 (ix2 r j)
      + Ideal.ofBits .f32 0x3F800000#32)
    - broadcastTo S2048x32 (shapeCast S2048x1 X1 shapeCasts_S2048x1_S2048x1) broadcasts_S2048x1_S2048x32 (ix2 r j)
      * extractStridedSlice S2048x32 ![0, 32] (Cert.LibPlainDot.matProd (M := 2048) (K := 1024) (N := 64) (oneHot X0) X2) slices_S2048x64_o0_32_S2048x32 (ix2 r j)) = _
  rw [extractStridedSlice_apply ![0, 0] _ slices_S2048x64_o0_0_S2048x32 (ix2 r j) (ix2 r (⟨j.val, by omega⟩ : Fin 64)) (fun a => by
      match a with
      | ⟨0, _⟩ => exact (Nat.zero_add _).symm
      | ⟨1, _⟩ => exact (Nat.zero_add _).symm),
    extractStridedSlice_apply ![0, 32] _ slices_S2048x64_o0_32_S2048x32 (ix2 r j) (ix2 r (⟨j.val + 32, by omega⟩ : Fin 64)) (fun a => by
      match a with
      | ⟨0, _⟩ => exact (Nat.zero_add _).symm
      | ⟨1, _⟩ => exact Nat.add_comm _ _),
    shapeCast_self,
    broadcastTo_apply X1 broadcasts_S2048x1_S2048x32 (ix2 r j) (ix2 r (0 : Fin 1)) (fun a => by
      match a with
      | ⟨0, _⟩ => rfl
      | ⟨1, _⟩ => rfl),
    Cert.LibPlainDot.matProd_ix2, Cert.LibPlainDot.matProd_ix2, oneHot_row_sum X0 X2 r _ hw, oneHot_row_sum X0 X2 r _ hw]
  rfl

/-- The same with the row's word and position named. -/
theorem pay_apply_of (X0 : Vec Ideal S2048x1 .i32) (X2 : Vec Ideal S1024x64 .f32) (X1 : Vec Ideal S2048x1 .f32)
    (r : Fin 2048) (j : Fin 32) (w : BitVec 32) (p : EReal) (h0 : X0 (ix2 r (0 : Fin 1)) = w) (h1 : X1 (ix2 r (0 : Fin 1)) = p)
    (hw : w.toNat < 1024) :
    k0_pay1 (F := Ideal) X0 X2 X1 (ix2 r j)
      = Cert.Spec.expTerm (X2 (ix2 (⟨w.toNat, hw⟩ : Fin 1024) (⟨j.val, by omega⟩ : Fin 64)))
          (X2 (ix2 (⟨w.toNat, hw⟩ : Fin 1024) (⟨j.val + 32, by omega⟩ : Fin 64))) p := by
  subst h0 h1
  exact pay_apply X0 X2 X1 r j hw

end Cert.KernelIdeal.Pay

end
-- ==== Proof.KIRun.lean ====
/-
  The idealized kernel's run, read: the intermediate array ends at `Cert.Spec.E` of the arguments.
-/
import proofs.«426888_j22823456211151_2_alg».proof.Proof.KIBody
import proofs.«426888_j22823456211151_2_alg».proof.Proof.KIEntry
import proofs.«426888_j22823456211151_2_alg».proof.Proof.KIPay
import proofs.«426888_j22823456211151_2_alg».proof.Proof.Spec
import proofs.«426888_j22823456211151_2_alg».proof.Proof.Gen.KernelIdeal.Frame
import Idealize.ShloMosaic.Lib.Pipeline.Value
import Idealize.ShloMosaic.Lib.Pipeline.Kit
import Idealize.ShloMosaic.Lib.Pipeline.FrameSuffix
import Idealize.ShloMosaic.Lib.Tactic
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Body (sound_body 𝒱₀)

local notation "𝕄" => MT nD τ sig Unit (Elt Ideal) ℕ (UR sig nD τ) ℕ

variable (m : (ℓ : Loc nD τ sig) → Buf (Elt Ideal) ℓ) (ρ : Dev nD → PrngReg)

/-- The intermediate array of the arguments as launched. -/
def Earr (c : Dev nD) : S2000000x32.Idx → EReal :=
  Cert.Spec.E (m ((c : Thread nD τ).loc main_arg0)) (m ((c : Thread nD τ).loc main_arg1))
    (m ((c : Thread nD τ).loc main_arg2)) (m ((c : Thread nD τ).loc main_arg3))

/-- The four windows' blocks at a point: the gene words' and the positions' rows inside the arrays, the whole table,
    and the rows of the intermediate array the point writes back. -/
def gblk (c : Dev nD) (t : Fin cfg0.N) : (win0_0.xblock (grid0.coords t)).Idx → BitVec 32 :=
  (win0_0.blk t).view.read (Elt Ideal) (V m c main_v7)
def pblk (c : Dev nD) (t : Fin cfg0.N) : (win0_1.xblock (grid0.coords t)).Idx → EReal :=
  (win0_1.blk t).view.read (Elt Ideal) (V m c main_v8)
def tblk (c : Dev nD) (t : Fin cfg0.N) : S1024x64.Idx → EReal :=
  (win0_2.blk t).view.read (Elt Ideal) (V m c main_v6)
def eblk (c : Dev nD) (t : Fin cfg0.N) : (win0_3.xblock (grid0.coords t)).Idx → EReal :=
  (win0_3.blk t).view.read (Elt Ideal) (Earr m c)

/-- The proof data: the arrays as the region finds them; after the body the inputs' buffers hold their blocks and the
    result's the block of the intermediate array, each filled out with zeros past the array's end. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => 0#32) (gblk m c t)
    | ⟨1, _⟩ => win0_1.fill (grid0.coords t) (fun _ => (0 : EReal)) (pblk m c t)
    | ⟨2, _⟩ => iblk m c 2 t
    | ⟨3, _⟩ => win0_3.fill (grid0.coords t) (fun _ => (0 : EReal)) (eblk m c t)
  Φ _ := Pipeline.ΦA spec0 c
  q _ := fullShare
  owed _ := 0

theorem before_0 (c : Dev nD) (t : Fin cfg0.N) (d) :
    (dats m 0 c).before (0 : Fin 4) t d = win0_0.fill (grid0.coords t) d (gblk m c t) := by
  unfold Dat.before; rw [if_pos (fetch0_0 t)]; rfl
theorem before_1 (c : Dev nD) (t : Fin cfg0.N) (d) :
    (dats m 0 c).before (1 : Fin 4) t d = win0_1.fill (grid0.coords t) d (pblk m c t) := by
  unfold Dat.before; rw [if_pos (fetch0_1 t)]; rfl
theorem before_2 (c : Dev nD) (t : Fin cfg0.N) (d) :
    (dats m 0 c).before (2 : Fin 4) t d = iblk m c 2 t :=
  before0_2_of m (dats m 0 c) rfl (fun _ => rfl) t d
theorem before_3 (c : Dev nD) (t : Fin cfg0.N) (d) : (dats m 0 c).before (3 : Fin 4) t d = d := by
  refine (dats m 0 c).before_out_reset (3 : Fin 4) rfl t ?_ d
  by_cases h : t.val = 0
  · exact Or.inl h
  · exact Or.inr ⟨h, flush0_3 _⟩

/-! ## Where the blocks sit -/

/-- The printed index maps over the grid: the three row-blocked windows are at block `t` of the rows at point `t`, the
    table at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- How many rows and columns of a block lie inside the arrays at each point: the three row-blocked windows are cut
    alike, to the rows left of the two million (all 2048 except at the last point). -/
theorem ext_facts : ∀ t : Fin cfg0.N,
    win0_0.xsize (grid0.coords t) (0 : Fin 2) = win0_3.xsize (grid0.coords t) (0 : Fin 2)
    ∧ win0_1.xsize (grid0.coords t) (0 : Fin 2) = win0_3.xsize (grid0.coords t) (0 : Fin 2)
    ∧ win0_0.xsize (grid0.coords t) (1 : Fin 2) = 1 ∧ win0_1.xsize (grid0.coords t) (1 : Fin 2) = 1
    ∧ win0_3.xsize (grid0.coords t) (1 : Fin 2) = 32
    ∧ t.val * 2048 + win0_3.xsize (grid0.coords t) (0 : Fin 2) ≤ 2000000
    ∧ (t.val * 2048 + win0_3.xsize (grid0.coords t) (0 : Fin 2) = 2000000 ∨ win0_3.xsize (grid0.coords t) (0 : Fin 2) = 2048) :=
  (by decide +kernel : ∀ t : Fin grid0.N, _)

/-- A row of the gene words' block is the argument's word at that row of the point's rows. -/
theorem gblk_apply (c : Dev nD) (t : Fin cfg0.N) (y : (win0_0.xblock (grid0.coords t)).Idx)
    (h : t.val * 2048 + (y 0).val < 2000000) :
    gblk m c t y = (m ((c : Thread nD τ).loc main_arg3) : S2000000.Idx → BitVec 32) (ix1 (⟨t.val * 2048 + (y 0).val, h⟩ : Fin 2000000)) := by
  obtain ⟨e0, e1, -⟩ := idx_facts t
  obtain ⟨-, -, x1, -⟩ := ext_facts t
  rw [← Entry.genes_apply m c ⟨_, h⟩]
  show (V m c main_v7 : S2000000x1.Idx → BitVec 32) ((win0_0.blk t).view.emb y) = _
  refine congrArg _ (funext fun a => Fin.ext ?_)
  match a with
  | ⟨0, _⟩ =>
    show win0_0.index t (0 : Fin 2) * 2048 + 1 * (y 0).val = t.val * 2048 + (y 0).val
    rw [e0]; omega
  | ⟨1, _⟩ =>
    show win0_0.index t (1 : Fin 2) * 1 + 1 * (y 1).val = 0
    have hy : (y 1).val < win0_0.xsize (grid0.coords t) (1 : Fin 2) := (y 1).isLt
    rw [e1]; omega

/-- A row of the positions' block is the argument's position at that row of the point's rows. -/
theorem pblk_apply (c : Dev nD) (t : Fin cfg0.N) (y : (win0_1.xblock (grid0.coords t)).Idx)
    (h : t.val * 2048 + (y 0).val < 2000000) :
    pblk m c t y = (m ((c : Thread nD τ).loc main_arg2) : S2000000.Idx → EReal) (ix1 (⟨t.val * 2048 + (y 0).val, h⟩ : Fin 2000000)) := by
  obtain ⟨-, -, e0, e1, -⟩ := idx_facts t
  obtain ⟨-, -, -, x1, -⟩ := ext_facts t
  rw [← Entry.pos_apply m c ⟨_, h⟩]
  show (V m c main_v8 : S2000000x1.Idx → EReal) ((win0_1.blk t).view.emb y) = _
  refine congrArg _ (funext fun a => Fin.ext ?_)
  match a with
  | ⟨0, _⟩ =>
    show win0_1.index t (0 : Fin 2) * 2048 + 1 * (y 0).val = t.val * 2048 + (y 0).val
    rw [e0]; omega
  | ⟨1, _⟩ =>
    show win0_1.index t (1 : Fin 2) * 1 + 1 * (y 1).val = 0
    have hy : (y 1).val < win0_1.xsize (grid0.coords t) (1 : Fin 2) := (y 1).isLt
    rw [e1]; omega

/-- The table's block is the whole table. -/
theorem tblk_apply (c : Dev nD) (t : Fin cfg0.N) (k : Fin 1024) (q : Fin 64) :
    tblk m c t (ix2 k q) = (V m c main_v6 : S1024x64.Idx → EReal) (ix2 k q) := by
  obtain ⟨-, -, -, -, e0, e1, -⟩ := idx_facts t
  show (V m c main_v6 : S1024x64.Idx → EReal) ((win0_2.blk t).view.emb (ix2 k q)) = _
  refine congrArg _ (funext fun a => Fin.ext ?_)
  match a with
  | ⟨0, _⟩ =>
    show win0_2.index t (0 : Fin 2) * 1024 + 1 * k.val = k.val
    rw [e0]; omega
  | ⟨1, _⟩ =>
    show win0_2.index t (1 : Fin 2) * 64 + 1 * q.val = q.val
    rw [e1]; omega

/-- An element of the block of the intermediate array a point writes back. -/
theorem eblk_apply (c : Dev nD) (t : Fin cfg0.N) (y : (win0_3.xblock (grid0.coords t)).Idx)
    (h : t.val * 2048 + (y 0).val < 2000000) (h1 : (y 1).val < 32) :
    eblk m c t y = Cert.Spec.Eat (m ((c : Thread nD τ).loc main_arg0)) (m ((c : Thread nD τ).loc main_arg1))
      (m ((c : Thread nD τ).loc main_arg2)) (m ((c : Thread nD τ).loc main_arg3))
      (⟨t.val * 2048 + (y 0).val, h⟩ : Fin 2000000) (⟨(y 1).val, h1⟩ : Fin 32) := by
  obtain ⟨-, -, -, -, -, -, e0, e1⟩ := idx_facts t
  have he : (win0_3.blk t).view.emb y = ix2 (⟨t.val * 2048 + (y 0).val, h⟩ : Fin 2000000) (⟨(y 1).val, h1⟩ : Fin 32) := by
    funext a; apply Fin.ext
    match a with
    | ⟨0, _⟩ =>
      show win0_3.index t (0 : Fin 2) * 2048 + 1 * (y 0).val = t.val * 2048 + (y 0).val
      rw [e0]; omega
    | ⟨1, _⟩ =>
      show win0_3.index t (1 : Fin 2) * 32 + 1 * (y 1).val = (y 1).val
      rw [e1]; omega
  show Earr m c ((win0_3.blk t).view.emb y) = _
  rw [he]
  rfl

/-- A filled block at an index its transfer moves is the block there. -/
theorem fill_moved {α : Type} (w : Window sig grid0) (i : grid0.Coords) (d : w.block.Idx → α) (g : (w.xblock i).Idx → α)
    (j : w.block.Idx) (hm : w.moved i j = true) :
    w.fill i d g j = g (fun a => ⟨(j a).val, (w.moved_iff i j).mp hm a⟩) := by
  unfold Window.fill; rw [dif_pos hm]

/-- WHAT A POINT WRITES BACK: the rows inside the array of the body's payload, computed from buffers that hold the
    point's blocks on those rows and anything past them, are the point's rows of the intermediate array. Each row of
    the payload reads its own row of the gene words and of the positions only, so what fills the buffers past the
    array's end does not matter. -/
theorem pay_cut (hg : ∀ c : Dev nD, Cert.Spec.InRange (m ((c : Thread nD τ).loc main_arg3))) (c : Dev nD) (t : Fin cfg0.N)
    (d0 : S2048x1.Idx → BitVec 32) (d1 : S2048x1.Idx → EReal) :
    win0_3.cut (grid0.coords t) (k0_pay1 (F := Ideal) (win0_0.fill (grid0.coords t) d0 (gblk m c t)) (iblk m c 2 t)
        (win0_1.fill (grid0.coords t) d1 (pblk m c t)))
      = eblk m c t := by
  funext y
  obtain ⟨x0, x1, x01, x11, x31, hle, -⟩ := ext_facts t
  have hy0 : (y 0).val < win0_3.xsize (grid0.coords t) (0 : Fin 2) := (y 0).isLt
  have hy1 : (y 1).val < win0_3.xsize (grid0.coords t) (1 : Fin 2) := (y 1).isLt
  have hr : t.val * 2048 + (y 0).val < 2000000 := by omega
  have hr2 : (y 0).val < 2048 := lt_of_lt_of_le hy0 (win0_3.xsize_le (grid0.coords t) (0 : Fin 2))
  have hj : (y 1).val < 32 := by omega
  have hx : win0_3.xinj (grid0.coords t) y = ix2 (⟨(y 0).val, hr2⟩ : Fin 2048) (⟨(y 1).val, hj⟩ : Fin 32) :=
    funext fun a => Fin.ext (by
      match a with
      | ⟨0, _⟩ => rfl
      | ⟨1, _⟩ => rfl)
  have hrange := hg c (⟨t.val * 2048 + (y 0).val, hr⟩ : Fin 2000000)
  have hX0 : win0_0.fill (grid0.coords t) d0 (gblk m c t) (ix2 (⟨(y 0).val, hr2⟩ : Fin 2048) (0 : Fin 1))
      = (m ((c : Thread nD τ).loc main_arg3) : S2000000.Idx → BitVec 32) (ix1 (⟨t.val * 2048 + (y 0).val, hr⟩ : Fin 2000000)) := by
    have hm : win0_0.moved (grid0.coords t) (ix2 (⟨(y 0).val, hr2⟩ : Fin 2048) (0 : Fin 1)) = true :=
      (win0_0.moved_iff _ _).mpr fun a => by
        match a with
        | ⟨0, _⟩ => show (y 0).val < win0_0.xsize (grid0.coords t) (0 : Fin 2); omega
        | ⟨1, _⟩ => show 0 < win0_0.xsize (grid0.coords t) (1 : Fin 2); omega
    rw [fill_moved win0_0 _ _ _ _ hm]
    exact gblk_apply m c t _ hr
  have hX1 : win0_1.fill (grid0.coords t) d1 (pblk m c t) (ix2 (⟨(y 0).val, hr2⟩ : Fin 2048) (0 : Fin 1))
      = (m ((c : Thread nD τ).loc main_arg2) : S2000000.Idx → EReal) (ix1 (⟨t.val * 2048 + (y 0).val, hr⟩ : Fin 2000000)) := by
    have hm : win0_1.moved (grid0.coords t) (ix2 (⟨(y 0).val, hr2⟩ : Fin 2048) (0 : Fin 1)) = true :=
      (win0_1.moved_iff _ _).mpr fun a => by
        match a with
        | ⟨0, _⟩ => show (y 0).val < win0_1.xsize (grid0.coords t) (0 : Fin 2); omega
        | ⟨1, _⟩ => show 0 < win0_1.xsize (grid0.coords t) (1 : Fin 2); omega
    rw [fill_moved win0_1 _ _ _ _ hm]
    exact pblk_apply m c t _ hr
  have hnat : ((m ((c : Thread nD τ).loc main_arg3) : S2000000.Idx → BitVec 32) (ix1 (⟨t.val * 2048 + (y 0).val, hr⟩ : Fin 2000000))).toNat < 1000 := by
    have := Cert.Spec.rowOf_val hrange
    have h2 := (Cert.Spec.rowOf ((m ((c : Thread nD τ).loc main_arg3) : S2000000.Idx → BitVec 32) (ix1 (⟨t.val * 2048 + (y 0).val, hr⟩ : Fin 2000000)))).isLt
    omega
  show k0_pay1 (F := Ideal) _ _ _ (win0_3.xinj (grid0.coords t) y) = _
  rw [hx, Pay.pay_apply_of _ _ _ _ _ _ _ hX0 hX1 (by omega), eblk_apply m c t y hr hj]
  show Cert.Spec.expTerm (tblk m c t _) (tblk m c t _) _ = _
  rw [tblk_apply, tblk_apply,
    Entry.table_left m c (⟨_, hnat⟩ : Fin 1000) (⟨(y 1).val, hj⟩ : Fin 32),
    Entry.table_right m c (⟨_, hnat⟩ : Fin 1000) (⟨(y 1).val, hj⟩ : Fin 32)]
  unfold Cert.Spec.Eat
  have hrow : Cert.Spec.rowOf ((m ((c : Thread nD τ).loc main_arg3) : S2000000.Idx → BitVec 32) (ix1 (⟨t.val * 2048 + (y 0).val, hr⟩ : Fin 2000000)))
      = (⟨_, hnat⟩ : Fin 1000) := Fin.ext (Cert.Spec.rowOf_val hrange)
  rw [hrow]

/-! ## The body obligation, the run and the arrays after it -/

theorem after_2 (c : Dev nD) (t : Fin cfg0.N) : (dats m 0 c).after 2 t = iblk m c 2 t := rfl
theorem after_3 (c : Dev nD) (t : Fin cfg0.N) :
    (dats m 0 c).after 3 t = win0_3.fill (grid0.coords t) (fun _ => (0 : EReal)) (eblk m c t) := rfl

/-- Contents whose rows inside the array are the point's rows of the intermediate array are what the result's buffer is
    asked to hold. -/
theorem leaves_3 (c : Dev nD) (t : Fin cfg0.N) (X : S2048x32.Idx → EReal) (hX : win0_3.cut (grid0.coords t) X = eblk m c t) :
    (win0 3).fill (grid0.coords t) X ((win0 3).cut (grid0.coords t) ((dats m 0 c).after 3 t)) = X := by
  rw [after_3]
  show win0_3.fill (grid0.coords t) X (win0_3.cut (grid0.coords t) (win0_3.fill (grid0.coords t) (fun _ => (0 : EReal)) (eblk m c t))) = X
  rw [win0_3.cut_fill, ← hX, win0_3.fill_cut]

section
variable (hg : ∀ c : Dev nD, Cert.Spec.InRange (m ((c : Thread nD τ).loc main_arg3)))
include hg

/-- At every point the body, handed the inputs' buffers just fetched (their blocks on the rows inside the arrays) and the
    result's at anything, leaves the inputs' buffers as found and the result's at the payload, whose rows inside the
    array are the point's rows of the intermediate array (`pay_cut`). -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_body (F := Ideal) c Set.univ (grid0.coords t) (cfg0.slots t 0) (cfg0.slots t 1) (cfg0.slots t 2) (cfg0.slots t 3)
    (win0_0.fill (grid0.coords t) d0 (gblk m c t)) (win0_1.fill (grid0.coords t) d1 (pblk m c t)) (iblk m c 2 t) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (win0_0.fill (grid0.coords t) (fun _ => 0#32) (gblk m c t))))
    rw [win0_0.cut_fill]; try iexact H0
  isplitl [H1]
  · iexists d1
    change _ ⊢ owns (c : Thread nD τ) (stage0_1 (cfg0.slots t 1)) fullShare
      (win0_1.fill (grid0.coords t) d1 (win0_1.cut (grid0.coords t) (win0_1.fill (grid0.coords t) (fun _ => (0 : EReal)) (pblk m c t))))
    rw [win0_1.cut_fill]; try iexact H1
  isplitl [H2]
  · rw [after_2 m c t]; try iexact H2
  · iexists k0_pay1 (F := Ideal) (win0_0.fill (grid0.coords t) d0 (gblk m c t)) (iblk m c 2 t) (win0_1.fill (grid0.coords t) d1 (pblk m c t))
    rw [leaves_3 m c t _ (pay_cut m hg c t d0 d1)]; try iexact H3

-- the launch theorem's implicit arguments are found by unifying its conclusion with this one, which takes unfolding
-- plain definitions in a metavariable's type
set_option backward.isDefEq.respectTransparency.types false in
/-- Every weakly fair execution of @main terminates, nothing faulting, with every array of the pallas_call at what the
    proof data compute and every other buffer at the host operations' values. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) 0 launch0 defs₀ 𝒱₀ m ρ main
    (hbody := body_obligation m hg)
    (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hΦ := fun _ _ => rfl)

/-! ## The intermediate array after the run -/

/-- What point `t` writes back is its block of the intermediate array. -/
theorem flushed_eq (c : Dev nD) (t : Fin cfg0.N) :
    (dats m 0 c).flushed 3 t = ((cfg0.win 3).blk t).view.read (Elt Ideal) (Earr m c) := by
  show win0_3.cut (grid0.coords t) ((dats m 0 c).after 3 t) = _
  rw [after_3, win0_3.cut_fill]
  rfl

omit hg in
/-- An index of the array is in point `t`'s block iff each coordinate is in the block's range inside the array. -/
theorem mem_blk (t : Fin cfg0.N) (i : S2000000x32.Idx) :
    i ∈ ((cfg0.win 3).blk t).view.set ↔ ∀ a : Fin 2, win0_3.index t a * S2048x32.size a ≤ (i a).val
      ∧ (i a).val < win0_3.index t a * S2048x32.size a + win0_3.xsize (grid0.coords t) a := by
  show i ∈ ((View.whole main_v9).slice (win0_3.rect t)).set ↔ _
  rw [View.set_slice_whole, Rect.mem_set_unit]
  exact Iff.rfl

omit hg in
/-- Every row of the array is in the block of the point its number divided by 2048 names: the blocks cover the array. -/
theorem cover (i : S2000000x32.Idx) :
    ∃ t : Fin cfg0.N, (cfg0.win 3).flush t = true ∧ i ∈ ((cfg0.win 3).blk t).view.set := by
  have hi0 : (i 0).val < 2000000 := (i 0).isLt
  have hi1 : (i 1).val < 32 := (i 1).isLt
  have hN : cfg0.N = 977 := N_0
  have hlt : (i 0).val / 2048 < cfg0.N := by rw [hN]; omega
  refine ⟨⟨(i 0).val / 2048, hlt⟩, flush0_3 _, ?_⟩
  rw [mem_blk]
  obtain ⟨-, -, -, -, -, -, e0, e1⟩ := idx_facts ⟨(i 0).val / 2048, hlt⟩
  obtain ⟨-, -, -, -, x31, hle, hcase⟩ := ext_facts ⟨(i 0).val / 2048, hlt⟩
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + win0_3.xsize (grid0.coords ⟨(i 0).val / 2048, hlt⟩) (0 : Fin 2)
    rw [e0]
    have hv : (⟨(i 0).val / 2048, hlt⟩ : Fin cfg0.N).val = (i 0).val / 2048 := rfl
    rw [hv] at hle hcase ⊢
    rcases hcase with h | h <;> omega
  | ⟨1, _⟩ =>
    show win0_3.index ⟨(i 0).val / 2048, hlt⟩ (1 : Fin 2) * 32 ≤ (i 1).val
      ∧ (i 1).val < win0_3.index ⟨(i 0).val / 2048, hlt⟩ (1 : Fin 2) * 32 + win0_3.xsize (grid0.coords ⟨(i 0).val / 2048, hlt⟩) (1 : Fin 2)
    rw [e1, x31]; omega

/-- The intermediate array after the run is `Cert.Spec.E` of the arguments. -/
theorem final (c : Dev nD) : (dats m 0 c).arrAt 3 cfg0.N = Earr m c :=
  (dats m 0 c).arrAt_eq_of_cover 3 (Earr m c) (fun t _ => flushed_eq m hg c t) cover

/-- The program's result after the host operations that follow the pallas_call: the accumulating scatter of the
    intermediate array's rows into the zero array at the segment words. -/
theorem result_eq (c : Dev nD) :
    Pipeline.afterTail₀ cfgs (dats m) 0 (V0 m) [hostOps1] c main_v12
      = Host.scatterAdd scatter_S100000x32_S2000000x1_S2000000x32_1_0_0_1
          (broadcastInDim S100000x32 ![] bcast_S_S100000x32 (constant (F := Ideal) S_ .f32 0x00000000#32))
          (broadcastInDim S2000000x1 ![0] bcast_S2000000_S2000000x1_0 (m ((c : Thread nD τ).loc main_arg4)))
          (Earr m c) := by
  unfold Pipeline.afterTail₀
  show StableHlo.after hostOps1 _ (Proc.devRef .tc main_v12) = _
  after_results
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  have h9 : Pipeline.withArrays (cfgs 0).spec c (V0 m c) (fun w => (dats m 0 c).arrAt w (cfgs 0).N) (Proc.devRef .tc main_v9)
      = Earr m c :=
    (Pipeline.withArrays_arr spec0 launch0.win.arr_inj c _ _ 3).trans (final m hg c)
  rw [h4, h9]

/-- THE RUN, READ: every weakly fair execution of @main terminates, nothing faulting, the result at the segment sums of
    the intermediate array `Cert.Spec.E` of the arguments, the arguments unchanged. -/
theorem run : θ_run defs (onTc (τ := τ) (main (F := Ideal))) ⟨m, fun _ => 0, ρ⟩ (fun r => ∀ c : Dev nD,
      r.2.mem ((c.tc : Thread nD τ).loc main_v12)
        = Host.scatterAdd scatter_S100000x32_S2000000x1_S2000000x32_1_0_0_1
            (broadcastInDim S100000x32 ![] bcast_S_S100000x32 (constant (F := Ideal) S_ .f32 0x00000000#32))
            (broadcastInDim S2000000x1 ![0] bcast_S2000000_S2000000x1_0 (m ((c.tc : Thread nD τ).loc main_arg4)))
            (Earr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v12 (Pipeline.mem_restRefs_of main_v12 (by decide) (by decide))).trans (result_eq m hg c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ hg)

end

end Cert.KernelIdeal.Run

end
-- ==== Proof.LibScatterGather.lean ====
/-
  Reading an accumulating scatter and a row gather at one element, at the ideal instance.

  `scatterAdd_vec_apply`: a vector of `M` updates added into a vector of length `N` at the positions a column of `M` words
  names: element `i` of the result is the operand's element plus the sum of the updates whose word, read as a signed
  integer, is `i` (a word outside `[0, N)` contributes nowhere).
  `scatterAdd_rows_apply`: the same for `M` rows of width `C` added into an `N × C` array: row `i`, column `j` collects
  column `j` of the update rows whose word is `i`.
  `gather_rows_apply`: row `e` of a gather of `M` rows out of an `N × C` array is the array's row at word `e`, read signed
  and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibScatterGather

open Idealize.ShloMosaic Idealize.ShloMosaic.ValueIdx

/-! ## A vector of updates added into a vector -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The vector scatter's dimension numbers: no window axes, the operand's one axis inserted and scatter-indexed, the
    index vector on axis 1 of the column of words. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j` lands on the operand's axis at its word read signed: the start is the word at row `j` of the column, the
    window coordinate is zero (the axis is inserted). -/
theorem vec_landing {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (a : Fin 1) :
    (vecDims N M wf).start j idx a + ((vecDims N M wf).window j a : ℤ) = (idx (ix2 (j 0) (0 : Fin 1))).toInt := by
  obtain rfl : a = 0 := Subsingleton.elim _ _
  unfold ScatterDims.start ScatterDims.window
  rw [dif_pos (show (0 : Fin 1) ∈ (vecDims N M wf).scatterDimsToOperandDims from List.mem_singleton.mpr rfl),
    dif_neg (show (0 : Fin 1) ∉ (vecDims N M wf).sKept by
      show (0 : Fin 1) ∉ (List.finRange 1).filter (· ∉ [0]); decide)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

/-- The update at `j` lands on element `i` exactly when its word, read signed, is `i`. -/
theorem vec_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : Fin N) :
    (vecDims N M wf).resultIdx? j idx = some (ix1 i) ↔ (idx (ix2 (j 0) (0 : Fin 1))).toInt = (i.val : ℤ) := by
  have hl := vec_landing wf idx j
  unfold ScatterDims.resultIdx?
  constructor
  · intro h
    split at h
    · next hc =>
      have h0 := congrFun (Option.some.inj h) 0
      have h1 := congrArg Fin.val h0
      simp only at h1
      have := hc 0
      rw [← hl 0]
      change ((vecDims N M wf).start j idx 0 + ((vecDims N M wf).window j 0 : ℤ)).toNat = i.val at h1
      omega
    · exact absurd h (by simp)
  · intro h
    have hc : ∀ a, 0 ≤ (vecDims N M wf).start j idx a + ((vecDims N M wf).window j a : ℤ) ∧
        (vecDims N M wf).start j idx a + ((vecDims N M wf).window j a : ℤ) < ((⟨1, ![N]⟩ : Shape).size a : ℤ) := by
      intro a
      obtain rfl : a = 0 := Subsingleton.elim _ _
      rw [hl 0, h]
      have := i.isLt
      constructor
      · omega
      · show (i.val : ℤ) < (N : ℤ); omega
    rw [dif_pos hc]
    congr 1
    funext a
    obtain rfl : a = 0 := Subsingleton.elim _ _
    refine Fin.ext ?_
    show ((vecDims N M wf).start j idx 0 + ((vecDims N M wf).window j 0 : ℤ)).toNat = i.val
    rw [hl 0, h]; simp

/-- THE VECTOR SCATTER READ AT `i`: the operand's element plus the sum, over the `M` updates, of those whose word read
    signed is `i`. The filtered sum over update indices becomes the sum over `Fin M` with an `if` (`Finset.sum_filter`,
    then the update index set re-indexed by its one coordinate). -/
theorem scatterAdd_vec_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (i : Fin N) :
    Host.scatterAdd d x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  show Ideal.hostScatterAdd (vecDims N M wf) x idx upd (ix1 i) = _
  unfold Ideal.hostScatterAdd
  congr 1
  rw [Finset.sum_filter, sum_idx1]
  refine Finset.sum_congr rfl fun e _ => ?_
  exact if_congr (vec_resultIdx wf idx (ix1 e) i) rfl rfl

/-! ## Rows of updates added into an array -/

/-- The row scatter's dimension numbers: the updates' axis 1 the window axis, the operand's axis 0 inserted and
    scatter-indexed, the index vector on axis 1 of the column of words. -/
abbrev rowDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On the operand's axis 0 update `q` lands at its word read signed: the start is the word at row `q 0` of the column,
    the window coordinate zero (the axis is inserted). -/
theorem row_landing0 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 0 + ((rowDims N M C wf).window q 0 : ℤ) = (idx (ix2 (q 0) (0 : Fin 1))).toInt := by
  unfold ScatterDims.start ScatterDims.window
  rw [dif_pos (show (0 : Fin 2) ∈ (rowDims N M C wf).scatterDimsToOperandDims from List.mem_singleton.mpr rfl),
    dif_neg (show (0 : Fin 2) ∉ (rowDims N M C wf).sKept by
      show (0 : Fin 2) ∉ (List.finRange 2).filter (· ∉ [(0 : Fin 2)]); decide)]
  have hsi : (rowDims N M C wf).siIdx q ⟨List.idxOf (0 : Fin 2) (rowDims N M C wf).scatterDimsToOperandDims,
      List.idxOf_lt_length_iff.2 (List.mem_singleton.mpr rfl)⟩ = ix2 (q 0) (0 : Fin 1) := by
    funext b; refine Fin.ext ?_
    match b with
    | ⟨0, _⟩ => rfl
    | ⟨1, _⟩ => rfl
  rw [hsi]
  simp

/-- On the operand's axis 1 update `q` lands at its own column: the start is 0 (the axis is not scatter-indexed), the
    window coordinate the update's coordinate on its one window axis. -/
theorem row_landing1 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 1 + ((rowDims N M C wf).window q 1 : ℤ) = ((q 1).val : ℤ) := by
  unfold ScatterDims.start ScatterDims.window
  rw [dif_neg (show (1 : Fin 2) ∉ (rowDims N M C wf).scatterDimsToOperandDims by
      show (1 : Fin 2) ∉ [(0 : Fin 2)]; decide),
    dif_pos (show (1 : Fin 2) ∈ (rowDims N M C wf).sKept by
      show (1 : Fin 2) ∈ (List.finRange 2).filter (· ∉ [(0 : Fin 2)]); decide), Int.zero_add]
  rfl

/-- The update at `q` lands on element `(i, k)` exactly when its word, read signed, is `i` and its column is `k`. -/
theorem row_resultIdx {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) (i : Fin N) (k : Fin C) :
    (rowDims N M C wf).resultIdx? q idx = some (ix2 i k)
      ↔ (idx (ix2 (q 0) (0 : Fin 1))).toInt = (i.val : ℤ) ∧ q 1 = k := by
  have hl0 := row_landing0 wf idx q
  have hl1 := row_landing1 wf idx q
  unfold ScatterDims.resultIdx?
  constructor
  · intro h
    split at h
    · next hc =>
      have hf := Option.some.inj h
      have h0 := congrArg Fin.val (congrFun hf 0)
      have h1 := congrArg Fin.val (congrFun hf 1)
      change ((rowDims N M C wf).start q idx 0 + ((rowDims N M C wf).window q 0 : ℤ)).toNat = i.val at h0
      change ((rowDims N M C wf).start q idx 1 + ((rowDims N M C wf).window q 1 : ℤ)).toNat = k.val at h1
      have hc0 := (hc 0).1
      rw [hl0] at h0 hc0
      rw [hl1] at h1
      refine ⟨by omega, Fin.ext ?_⟩
      simpa using h1
    · exact absurd h (by simp)
  · rintro ⟨h, hk⟩
    have hc : ∀ a, 0 ≤ (rowDims N M C wf).start q idx a + ((rowDims N M C wf).window q a : ℤ) ∧
        (rowDims N M C wf).start q idx a + ((rowDims N M C wf).window q a : ℤ) < ((⟨2, ![N, C]⟩ : Shape).size a : ℤ) := by
      intro a
      match a with
      | ⟨0, _⟩ =>
        have := i.isLt
        refine ⟨?_, ?_⟩
        · show 0 ≤ (rowDims N M C wf).start q idx 0 + ((rowDims N M C wf).window q 0 : ℤ)
          rw [hl0, h]; omega
        · show (rowDims N M C wf).start q idx 0 + ((rowDims N M C wf).window q 0 : ℤ) < (N : ℤ)
          rw [hl0, h]; omega
      | ⟨1, _⟩ =>
        have := idx2_lt1 q
        refine ⟨?_, ?_⟩
        · show 0 ≤ (rowDims N M C wf).start q idx 1 + ((rowDims N M C wf).window q 1 : ℤ)
          rw [hl1]; omega
        · show (rowDims N M C wf).start q idx 1 + ((rowDims N M C wf).window q 1 : ℤ) < (C : ℤ)
          rw [hl1]; omega
    rw [dif_pos hc]
    congr 1
    funext a
    refine Fin.ext ?_
    match a with
    | ⟨0, _⟩ =>
      show ((rowDims N M C wf).start q idx 0 + ((rowDims N M C wf).window q 0 : ℤ)).toNat = i.val
      rw [hl0, h]; simp
    | ⟨1, _⟩ =>
      show ((rowDims N M C wf).start q idx 1 + ((rowDims N M C wf).window q 1 : ℤ)).toNat = k.val
      rw [hl1, hk]; simp

/-- THE ROW SCATTER READ AT `(i, j)`: the operand's element plus the sum, over the `M` update rows, of column `j` of those
    whose word read signed is `i`. The filtered sum over update indices becomes the double sum over (row, column) with an
    `if` (`Finset.sum_filter`, `sum_idx2`); the column sum keeps the one term at `j` (`Finset.sum_ite_eq'`). -/
theorem scatterAdd_rows_apply {N M C w : Nat} {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ) (i : Fin N) (j : Fin C) :
    Host.scatterAdd d x idx upd (ix2 i j)
      = x (ix2 i j) + ∑ e : Fin M, if (idx (ix2 e (0 : Fin 1))).toInt = (i.val : ℤ) then upd (ix2 e j) else 0 := by
  obtain ⟨uw, iw, sd, ivd, wf⟩ := d
  simp only at huw hiw hsd hivd
  subst huw hiw hsd hivd
  show Ideal.hostScatterAdd (rowDims N M C wf) x idx upd (ix2 i j) = _
  unfold Ideal.hostScatterAdd
  congr 1
  rw [Finset.sum_filter, sum_idx2]
  refine Finset.sum_congr rfl fun e _ => ?_
  have hstep : ∀ b : Fin C,
      (if (rowDims N M C wf).resultIdx? (ix2 e b) idx = some (ix2 i j) then upd (ix2 e b) else 0)
        = if b = j then (if (idx (ix2 e (0 : Fin 1))).toInt = (i.val : ℤ) then upd (ix2 e b) else 0) else 0 := by
    intro b
    have hiff := row_resultIdx wf idx (ix2 e b) i j
    by_cases hb : b = j
    · rw [if_pos hb]
      exact if_congr (hiff.trans ⟨fun h => h.1, fun h => ⟨h, hb⟩⟩) rfl rfl
    · rw [if_neg hb, if_neg]
      exact fun h => hb (hiff.mp h).2
  rw [Finset.sum_congr rfl fun b _ => hstep b, Finset.sum_ite_eq' Finset.univ j, if_pos (Finset.mem_univ j)]

/-! ## Rows gathered out of an array -/

/-- The row gather's dimension numbers: the result's axis 1 the offset axis, the operand's axis 0 collapsed and
    start-indexed, no batching axes, the index vector on axis 1 of the column of words, slices one row wide. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- On the collapsed axis the operand index is the clamped start: the word at row `e` of the column read signed, cut
    into `[0, N - 1]`; no batching or offset coordinate. -/
theorem rowGather_axis0 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 0).val = min (idx (ix2 e (0 : Fin 1))).toInt.toNat (N - 1) := by
  show (rowGatherDims N M C wf).start (ix2 e j) idx 0 + (rowGatherDims N M C wf).batchCoord (ix2 e j) 0
    + (rowGatherDims N M C wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowGatherDims N M C wf).startIndexMap from List.mem_singleton.mpr rfl)]
  have hsi : (rowGatherDims N M C wf).siIdx (ix2 e j) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the offset axis the operand index is the result's column: the start is 0 (the axis is not start-indexed), the
    offset coordinate the result's coordinate on its one offset axis. -/
theorem rowGather_axis1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 1).val = j.val := by
  show (rowGatherDims N M C wf).start (ix2 e j) idx 1 + (rowGatherDims N M C wf).batchCoord (ix2 e j) 1
    + (rowGatherDims N M C wf).offCoord (ix2 e j) 1 = _
  rw [GatherDims.batchCoord_eq_zero _ _ _ List.not_mem_nil, Nat.add_zero]
  unfold GatherDims.start
  rw [dif_neg (show (1 : Fin 2) ∉ (rowGatherDims N M C wf).startIndexMap by
    show (1 : Fin 2) ∉ [(0 : Fin 2)]; decide), Nat.zero_add]
  unfold GatherDims.offCoord
  rw [dif_pos (show (1 : Fin 2) ∈ (rowGatherDims N M C wf).sKept by
    show (1 : Fin 2) ∈ (List.finRange 2).filter (· ∉ [(0 : Fin 2)] ++ []); decide)]
  rfl

/-- THE ROW GATHER READ AT `(e, j)`: the array at row "word `e`, read signed and clamped into `[0, N - 1]`", column `j`. -/
theorem gather_rows_apply {α : Type} {N M C w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![M, 1]⟩ w) (e : Fin M) (j : Fin C) (hN : 0 < N) :
    Host.gather d x idx (ix2 e j)
      = x (ix2 (⟨min (idx (ix2 e (0 : Fin 1))).toInt.toNat (N - 1), by omega⟩ : Fin N) j) := by
  obtain ⟨od, cd, ob, sb, sm, ivd, ss, wf⟩ := d
  simp only at hoff hcoll hob hsb hsim hivd hss
  subst hoff hcoll hob hsb hsim hivd hss
  show x ((rowGatherDims N M C wf).operandIdx (ix2 e j) idx) = _
  congr 1
  funext a
  refine Fin.ext ?_
  match a with
  | ⟨0, _⟩ => exact rowGather_axis0 wf idx e j
  | ⟨1, _⟩ => exact rowGather_axis1 wf idx e j

end Cert.LibScatterGather

end
-- ==== Proof.RefValue.lean ====
/-
  The reference's run read back: its result is the segment sum of the intermediate array `Cert.Spec.E` of its arguments,
  when every gene's word names a table row.
-/
import proofs.«426888_j22823456211151_2_alg».proof.Proof.Gen.ReferenceIdeal.Run
import proofs.«426888_j22823456211151_2_alg».proof.Proof.Gen.ReferenceIdeal.Read
import proofs.«426888_j22823456211151_2_alg».proof.Proof.Spec
import proofs.«426888_j22823456211151_2_alg».proof.Proof.LibScatterGather

noncomputable section

namespace Cert.ReferenceIdeal.RefValue

open Idealize.ShloMosaic Idealize.ShloMosaic.TcCoe Idealize.SL.Sem Idealize.ShloMosaic.ValueIdx
open Cert.ReferenceIdeal Cert.ReferenceIdeal.Gen

/-! ## Words: the sign test and the wrapped row -/

/-- A word that reads as a non-negative integer is not below zero in the signed order: the comparison's bit is clear. -/
private theorem slt_zero_of_nonneg {w : BitVec 32} (h : 0 ≤ w.toInt) : IntOp.cmpi .slt w 0#32 = 0#1 := by
  show BitVec.ofBool (w.slt 0#32) = 0#1
  have hf : w.slt 0#32 = false := by
    rw [BitVec.slt_eq_decide]
    simp only [BitVec.toInt_zero, decide_eq_false_iff_not, not_lt]
    exact h
  rw [hf]; rfl

/-- The word the reference gathers with: the gene's word, with a thousand added when it reads negative. -/
private abbrev sel (g : IVec S2000000 32) : IVec S2000000 32 :=
  select (cmpi .slt g (broadcastInDim S2000000 ![] bcast_S_S2000000 (constantI S_ 32 0#32)))
    (addi g (broadcastInDim S2000000 ![] bcast_S_S2000000 (constantI S_ 32 1000#32))) g

/-- A word that reads non-negative is gathered with as it stands. -/
private theorem sel_apply (g : IVec S2000000 32) (r : Fin 2000000) (h : 0 ≤ (g (ix1 r)).toInt) :
    sel g (ix1 r) = g (ix1 r) := by
  show Scalar.select (IntOp.cmpi .slt (g (ix1 r)) 0#32) _ (g (ix1 r)) = g (ix1 r)
  rw [slt_zero_of_nonneg h, select_zero]

/-! ## The two layouts: a vector as a column, a column across the columns -/

/-- A vector laid as a column reads, at row `r`, the vector at `r`. -/
private theorem col_apply {α : Type} (v : S2000000.Idx → α) (r : Fin 2000000) :
    broadcastInDim S2000000x1 ![0] bcast_S2000000_S2000000x1_0 v (ix2 r (0 : Fin 1)) = v (ix1 r) :=
  broadcastInDim_apply _ bcast_S2000000_S2000000x1_0 v (ix2 r (0 : Fin 1)) (ix1 r) (fun a => match a with
    | ⟨0, _⟩ => by show r.val = if (2000000 : Nat) = 1 then 0 else r.val; rw [if_neg (by decide)])

/-- A column laid across the thirty-two columns reads, at `(r, j)`, the column at row `r`. -/
private theorem across_apply {α : Type} (v : S2000000x1.Idx → α) (r : Fin 2000000) (j : Fin 32) :
    broadcastInDim S2000000x32 ![0, 1] bcast_S2000000x1_S2000000x32_0_1 v (ix2 r j) = v (ix2 r (0 : Fin 1)) :=
  broadcastInDim_apply _ bcast_S2000000x1_S2000000x32_0_1 v (ix2 r j) (ix2 r (0 : Fin 1)) (fun a => match a with
    | ⟨0, _⟩ => by show r.val = if (2000000 : Nat) = 1 then 0 else r.val; rw [if_neg (by decide)]
    | ⟨1, _⟩ => by show (0 : Nat) = if (1 : Nat) = 1 then 0 else j.val; rw [if_pos rfl])

/-! ## The gather at an element -/

/-- The reference's gather of a table at the selected words reads, at `(r, j)`, the table at the row the gene's word
    names, column `j`: the selected word is the word itself, and its clamp into the thousand rows is `rowOf`. -/
private theorem gather_apply {α : Type} (x : S1000x32.Idx → α) (g : IVec S2000000 32) (r : Fin 2000000) (j : Fin 32)
    (h : 0 ≤ (g (ix1 r)).toInt) :
    Host.gather gather_S1000x32_S2000000x1_S2000000x32_1_0_n_n_0_1_132 x
        (broadcastInDim S2000000x1 ![0] bcast_S2000000_S2000000x1_0 (sel g)) (ix2 r j)
      = x (ix2 (Cert.Spec.rowOf (g (ix1 r))) j) := by
  have hw : broadcastInDim S2000000x1 ![0] bcast_S2000000_S2000000x1_0 (sel g) (ix2 r (0 : Fin 1)) = g (ix1 r) := by
    rw [col_apply, sel_apply g r h]
  rw [Cert.LibScatterGather.gather_rows_apply gather_S1000x32_S2000000x1_S2000000x32_1_0_n_n_0_1_132
    rfl rfl rfl rfl rfl rfl rfl x _ r j (by decide)]
  refine congrArg x (congrArg (fun q : Fin 1000 => ix2 q j) (Fin.ext ?_))
  show min (broadcastInDim S2000000x1 ![0] bcast_S2000000_S2000000x1_0 (sel g) (ix2 r (0 : Fin 1))).toInt.toNat (1000 - 1)
    = min (g (ix1 r)).toInt.toNat 999
  rw [hw]

/-! ## The intermediate array -/

/-- The array the reference hands to its segment sum is the specified one, element by element. -/
private theorem third_eq (A B : FVec Ideal S1000x32 .f32) (pos : FVec Ideal S2000000 .f32) (g : IVec S2000000 32)
    (hg : Cert.Spec.InRange g) :
    Host.exp (subf
        (addf (Host.gather gather_S1000x32_S2000000x1_S2000000x32_1_0_n_n_0_1_132 A
            (broadcastInDim S2000000x1 ![0] bcast_S2000000_S2000000x1_0 (sel g)))
          (broadcastInDim S2000000x32 ![] bcast_S_S2000000x32 (constant (F := Ideal) S_ .f32 0x3F800000#32)))
        (mulf (broadcastInDim S2000000x32 ![0, 1] bcast_S2000000x1_S2000000x32_0_1
            (broadcastInDim S2000000x1 ![0] bcast_S2000000_S2000000x1_0 pos))
          (Host.gather gather_S1000x32_S2000000x1_S2000000x32_1_0_n_n_0_1_132 B
            (broadcastInDim S2000000x1 ![0] bcast_S2000000_S2000000x1_0 (sel g)))))
      = Cert.Spec.E A B pos g := by
  funext i
  obtain ⟨r, j, rfl⟩ : ∃ r j, i = ix2 r j := ⟨i 0, i 1, eq_ix2 i⟩
  have h0 := (hg r).1
  show Ideal.exp ((Host.gather gather_S1000x32_S2000000x1_S2000000x32_1_0_n_n_0_1_132 A _ (ix2 r j)
        + Ideal.ofBits .f32 0x3F800000#32)
      - broadcastInDim S2000000x32 ![0, 1] bcast_S2000000x1_S2000000x32_0_1
          (broadcastInDim S2000000x1 ![0] bcast_S2000000_S2000000x1_0 pos) (ix2 r j)
        * Host.gather gather_S1000x32_S2000000x1_S2000000x32_1_0_n_n_0_1_132 B _ (ix2 r j)) = _
  rw [gather_apply A g r j h0, gather_apply B g r j h0, across_apply, col_apply]
  rfl

/-- The reference's run ends with its result at the segment sum of the specified intermediate array, the five arguments
    unchanged: the result is the operations' composed term of the arguments, and that term's last operand is the array. -/
theorem run (m' : (ℓ : Loc nD τ sig) → Buf (Elt Ideal) ℓ) (ρ' : Dev nD → PrngReg)
    (hg : ∀ c : Dev nD, Cert.Spec.InRange (m' ((c.tc : Thread nD τ).loc main_arg3))) :
    θ_run (defs (F := Ideal)) (onTc (τ := τ) (main (F := Ideal))) ⟨m', fun _ => 0, ρ'⟩ (fun r => ∀ c : Dev nD,
      r.2.mem ((c.tc : Thread nD τ).loc main_v23)
        = Host.scatterAdd scatter_S100000x32_S2000000x1_S2000000x32_1_0_0_1
            (broadcastInDim S100000x32 ![] bcast_S_S100000x32 (constant (F := Ideal) S_ .f32 0x00000000#32))
            (broadcastInDim S2000000x1 ![0] bcast_S2000000_S2000000x1_0 (m' ((c.tc : Thread nD τ).loc main_arg4)))
            (Cert.Spec.E (m' ((c.tc : Thread nD τ).loc main_arg0)) (m' ((c.tc : Thread nD τ).loc main_arg1))
              (m' ((c.tc : Thread nD τ).loc main_arg2)) (m' ((c.tc : Thread nD τ).loc main_arg3)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) := by
  refine (θ_run (defs (F := Ideal)) _ _).mono (fun r h c => ?_) (Cert.ReferenceIdeal.Value.run (F := Ideal) m' ρ')
  have hc := h c
  rw [third_eq _ _ _ _ (hg c)] at hc
  exact hc

end Cert.ReferenceIdeal.RefValue

end
-- ==== Proof.PreFacts.lean ====
/-
  What the precondition says of the gene words: each, read as a signed integer, lies in `[0, 1000)`.
-/
import proofs.«426888_j22823456211151_2_alg».proof.Pre_finite_inputs
import proofs.«426888_j22823456211151_2_alg».proof.Proof.Gen.Pre_finite_inputs
import proofs.«426888_j22823456211151_2_alg».proof.Proof.Spec
import Idealize.ShloMosaic.Lib.ReduceAll
import Idealize.ShloMosaic.Lib.StableHlo.Predicate

noncomputable section

namespace Cert.PreFacts

open Idealize.ShloMosaic Idealize.ShloMosaic.ValueIdx
open Cert.Pre_finite_inputs

variable {F : FTy → Type} [FloatOps F]

/-- The scalar shape has one index. -/
private instance : Subsingleton S_.Idx := ⟨fun a b => funext fun d => d.elim0⟩

/-- A scalar constant broadcast over the genes reads that constant at every gene. -/
private theorem bcast_const (c : BitVec 32) (hb : S_.BroadcastsInDim S2000000 (![] : Fin 0 → Fin S2000000.rank))
    (i : S2000000.Idx) : broadcastInDim S2000000 ![] hb (constantI S_ 32 c) i = c := rfl

theorem inRange_of_pre (A B : FVec F S1000x32 .f32) (pos : FVec F S2000000 .f32) (g seq : IVec S2000000 32)
    (h : Cert.Pre_finite_inputs.fn (F := F) A B pos g seq = fun _ => 1#1) : Cert.Spec.InRange g := by
  have h0 := congrFun h ValueIdx.ix0
  dsimp only [Cert.Pre_finite_inputs.fn, Cert.Pre_finite_inputs.fn_part1] at h0
  -- the conjunction of the five tests: the last is `g < 1000`, the one before it `0 ≤ g`
  obtain ⟨h1, hlt⟩ := IntOp.andi_eq_one.1 h0
  obtain ⟨_, hge⟩ := IntOp.andi_eq_one.1 h1
  intro r
  -- each test is a conjunction over all genes, so it holds at gene `r`
  have hge' := Host.reduce_andi_all _ _ _ _ ix0 hge (ix1 r)
  have hlt' := Host.reduce_andi_all _ _ _ _ ix0 hlt (ix1 r)
  have e0 := IntOp.cmpi_sge.1 hge'
  have e1 := IntOp.cmpi_slt.1 hlt'
  rw [bcast_const] at e0 e1
  have z0 : (0#32 : BitVec 32).toInt = 0 := by decide
  have z1 : (1000#32 : BitVec 32).toInt = 1000 := by decide
  rw [z0] at e0
  rw [z1] at e1
  exact ⟨e0, e1⟩

end Cert.PreFacts

end
-- ==== Proof.lean ====
/-
  Both programs compute, for each of 100000 segments, the sum over the segment's genes of the 32-column row
  `exp ((A[g, j] + 1) - pos * B[g, j])`, where `g` is the gene's word naming a row of the two 1000 x 32 tables. The
  reference gathers the rows; the kernel multiplies a one-hot matrix of the words with the two tables laid side by side
  and zero-padded to 1024 rows, 2048 genes at a time. Over the extended reals a sum of zeros and one-times-an-entry is
  that entry, so for words in `[0, 1000)` (the precondition's last two conjuncts) the two intermediate arrays are one
  function of the arguments, `Cert.Spec.E`; the segment sum after it is the same host operation on both sides.
  The last block of 2048 rows overhangs the two million rows; what the kernel computes from the rows past the end is
  never written back, and every row of its arithmetic reads its own row of the inputs only.
-/
import proofs.«426888_j22823456211151_2_alg».proof.Defs
import proofs.«426888_j22823456211151_2_alg».proof.Proof.Gen.Kernel
import proofs.«426888_j22823456211151_2_alg».proof.Proof.Gen.KernelIdeal
import proofs.«426888_j22823456211151_2_alg».proof.Proof.Gen.ReferenceIdeal
import proofs.«426888_j22823456211151_2_alg».proof.Proof.Gen.Pre_finite_inputs
import proofs.«426888_j22823456211151_2_alg».proof.Proof.KFrame
import proofs.«426888_j22823456211151_2_alg».proof.Proof.KIRun
import proofs.«426888_j22823456211151_2_alg».proof.Proof.RefValue
import proofs.«426888_j22823456211151_2_alg».proof.Proof.PreFacts
import Idealize.ShloMosaic.Adequacy
import Idealize.ShloMosaic.Init

noncomputable section

namespace Cert.Proof

open Idealize.ShloMosaic Idealize.SL.Sem

/-- Under the precondition every gene's word names a table row (the idealized kernel's arguments). -/
theorem inRange_ki (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (m ((c.tc : Thread Cert.KernelIdeal.nD Cert.KernelIdeal.τ).loc Cert.KernelIdeal.main_arg3)) :=
  Cert.PreFacts.inRange_of_pre _ _ _ _ _ (h c)

/-- The same of the reference's arguments. -/
theorem inRange_ri (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Cert.Spec.InRange (m ((c.tc : Thread Cert.ReferenceIdeal.nD Cert.ReferenceIdeal.τ).loc Cert.ReferenceIdeal.main_arg3)) :=
  Cert.PreFacts.inRange_of_pre _ _ _ _ _ (h c)

theorem frame_k : Cert.frame_Kernel := Cert.Kernel.FrameProof.frame

theorem frame_ki : Cert.frame_KernelIdeal := fun m ρ h =>
  Cert.KernelIdeal.Gen.frame_of m ρ (Cert.KernelIdeal.Run.dats m) (fun _ _ => rfl)
    (Cert.KernelIdeal.Run.run_main m ρ (inRange_ki m h))

theorem frame_ri : Cert.frame_ReferenceIdeal := fun m ρ h =>
  (θ_run Cert.ReferenceIdeal.defs _ _).mono (fun _ hr c => (hr c).2) (Cert.ReferenceIdeal.RefValue.run m ρ (inRange_ri m h))

theorem preserves : Cert.preserves_Kernel_KernelIdeal := trivial

/-- From arguments that agree, both runs end at the segment sums of one intermediate array. -/
theorem algebraic : Cert.algebraic_KernelIdeal_ReferenceIdeal := by
  intro m ρ m' ρ' hpre hagree
  have hg := inRange_ki m hpre
  have hg' : ∀ c : Dev Cert.ReferenceIdeal.nD, Cert.Spec.InRange
      (m' ((c.tc : Thread Cert.ReferenceIdeal.nD Cert.ReferenceIdeal.τ).loc Cert.ReferenceIdeal.main_arg3)) := fun c => by
    rw [(hagree c).2.2.2.1]; exact hg c
  refine ⟨_, Cert.KernelIdeal.Run.run m ρ hg, ?_⟩
  refine (θ_run Cert.ReferenceIdeal.defs _ _).mono (fun r h c => ⟨(h c).1.trans ?_, (h c).2⟩)
    (Cert.ReferenceIdeal.RefValue.run m' ρ' hg')
  rw [(hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
